-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S2820x64 : Shape := ⟨2, ![2820, 64]⟩
abbrev S_ : Shape := ⟨0, ![]⟩

class Facts : Prop where
  bcast_S_S2820x64 : S_.BroadcastsInDim S2820x64 (![] : Fin 0 → Fin S2820x64.rank)
  reducesTo_S2820x64_S_d0_1 : S2820x64.ReducesTo [0, 1] S_
  h_S_ : 0 < S_.numel
  bcast_S_S32x8192 : S_.BroadcastsInDim S32x8192 (![] : Fin 0 → Fin S32x8192.rank)
  reducesTo_S32x8192_S_d0_1 : S32x8192.ReducesTo [0, 1] S_

variable [Facts]

def fn {F : FTy → Type} [FloatOps F] (main_arg0 : IVec S32x8192 32) (main_arg1 : FVec F S2820x64 .f32) : IVec S_ 1 :=
  let main_v0 : FVec F S2820x64 .f32 := Host.absf main_arg1
  let main_cst : FVec F S_ .f32 := constant S_ .f32 0x7F800000#32
  let main_v1 : FVec F S2820x64 .f32 := broadcastInDim S2820x64 ![] bcast_S_S2820x64 main_cst
  let main_v2 : IVec S2820x64 1 := cmpf .olt main_v0 main_v1
  let main_c : IVec S_ 1 := constantI S_ 1 1#1
  let main_v3 : IVec S_ 1 := (fun x v => Host.reduce IntOp.andi x v reducesTo_S2820x64_S_d0_1 h_S_) main_v2 main_c
  let main_c_0 : IVec S_ 32 := constantI S_ 32 0#32
  let main_v4 : IVec S32x8192 32 := broadcastInDim S32x8192 ![] bcast_S_S32x8192 main_c_0
  let main_v5 : IVec S32x8192 1 := cmpi .sge main_arg0 main_v4
  let main_c_1 : IVec S_ 32 := constantI S_ 32 2820#32
  let main_v6 : IVec S32x8192 32 := broadcastInDim S32x8192 ![] bcast_S_S32x8192 main_c_1
  let main_v7 : IVec S32x8192 1 := cmpi .slt main_arg0 main_v6
  let main_v8 : IVec S32x8192 1 := andi main_v5 main_v7
  let main_c_2 : IVec S_ 1 := constantI S_ 1 1#1
  let main_v9 : IVec S_ 1 := (fun x v => Host.reduce IntOp.andi x v reducesTo_S32x8192_S_d0_1 h_S_) main_v8 main_c_2
  let main_v10 : IVec S_ 1 := andi main_v3 main_v9
  main_v10
-- ==== Kernel.lean ====
abbrev S32x8192 : Shape := ⟨2, ![32, 8192]⟩
abbrev S2820x64 : Shape := ⟨2, ![2820, 64]⟩
abbrev S_ : Shape := ⟨0, ![]⟩
abbrev S1 : Shape := ⟨1, ![1]⟩
abbrev S64 : Shape := ⟨1, ![64]⟩
abbrev S8192 : Shape := ⟨1, ![8192]⟩
abbrev S1x8192 : Shape := ⟨2, ![1, 8192]⟩
abbrev S32x8191 : Shape := ⟨2, ![32, 8191]⟩
abbrev S32x1 : Shape := ⟨2, ![32, 1]⟩
abbrev S32x8192x1 : Shape := ⟨3, ![32, 8192, 1]⟩
abbrev S1x1x1 : Shape := ⟨3, ![1, 1, 1]⟩
abbrev S64x2820 : Shape := ⟨2, ![64, 2820]⟩
abbrev S64x2944 : Shape := ⟨2, ![64, 2944]⟩
abbrev S1x262144 : Shape := ⟨2, ![1, 262144]⟩
abbrev S262144x64 : Shape := ⟨2, ![262144, 64]⟩
abbrev S1x1024 : Shape := ⟨2, ![1, 1024]⟩
abbrev S1024x64 : Shape := ⟨2, ![1024, 64]⟩
abbrev S2944x1024 : Shape := ⟨2, ![2944, 1024]⟩
abbrev S64x1024 : Shape := ⟨2, ![64, 1024]⟩
abbrev S32x8192x64 : Shape := ⟨3, ![32, 8192, 64]⟩

abbrev nBuf : Space → Nat
  | .hbm => 262
  | .vmem => 9
  | .smem => 0
  | _ => 0

abbrev hbmTy0_0 (i : Nat) : BufTy := match i % 128 with
  | 0 => ⟨S32x8192, .i32⟩
  | 1 => ⟨S2820x64, .f32⟩
  | 2 => ⟨S_, .i32⟩
  | 3 => ⟨S_, .i32⟩
  | 4 => ⟨S_, .i32⟩
  | 5 => ⟨S32x8192, .i32⟩
  | 6 => ⟨S32x8192, .i32⟩
  | 7 => ⟨S_, .i32⟩
  | 8 => ⟨S32x8192, .i32⟩
  | 9 => ⟨S32x8192, .i32⟩
  | 10 => ⟨S_, .i32⟩
  | 11 => ⟨S1, .i32⟩
  | 12 => ⟨S_, .f32⟩
  | 13 => ⟨S64, .f32⟩
  | 14 => ⟨S2820x64, .f32⟩
  | 15 => ⟨S8192, .i32⟩
  | 16 => ⟨S1x8192, .i32⟩
  | 17 => ⟨S32x8191, .i32⟩
  | 18 => ⟨S32x8191, .i32⟩
  | 19 => ⟨S32x8191, .i1⟩
  | 20 => ⟨S_, .i1⟩
  | 21 => ⟨S32x1, .i1⟩
  | 22 => ⟨S32x8192, .i1⟩
  | 23 => ⟨S_, .i1⟩
  | 24 => ⟨S32x1, .i1⟩
  | 25 => ⟨S32x8192, .i1⟩
  | 26 => ⟨S_, .i32⟩
  | 27 => ⟨S_, .i32⟩
  | 28 => ⟨S32x8192, .i32⟩
  | 29 => ⟨S32x8192, .i32⟩
  | 30 => ⟨S32x8192, .i32⟩
  | 31 => ⟨S_, .i32⟩
  | 32 => ⟨S_, .i32⟩
  | 33 => ⟨S32x8192, .i32⟩
  | 34 => ⟨S_, .i32⟩
  | 35 => ⟨S1x8192, .i32⟩
  | 36 => ⟨S1x8192, .i32⟩
  | 37 => ⟨S_, .i32⟩
  | 38 => ⟨S_, .i32⟩
  | 39 => ⟨S32x8192, .i32⟩
  | 40 => ⟨S32x8192, .i32⟩
  | 41 => ⟨S32x8192, .i32⟩
  | 42 => ⟨S_, .i32⟩
  | 43 => ⟨S_, .i32⟩
  | 44 => ⟨S32x8192, .i32⟩
  | 45 => ⟨S32x8192, .i32⟩
  | 46 => ⟨S_, .i32⟩
  | 47 => ⟨S32x8192, .i32⟩
  | 48 => ⟨S32x8192, .i32⟩
  | 49 => ⟨S_, .i32⟩
  | 50 => ⟨S_, .i32⟩
  | 51 => ⟨S32x8192, .i32⟩
  | 52 => ⟨S32x8192, .i32⟩
  | 53 => ⟨S_, .i32⟩
  | 54 => ⟨S32x8192, .i32⟩
  | 55 => ⟨S32x8192, .i1⟩
  | 56 => ⟨S_, .i32⟩
  | 57 => ⟨S32x8192, .i32⟩
  | 58 => ⟨S32x8192, .i32⟩
  | 59 => ⟨S32x8192, .i32⟩
  | 60 => ⟨S32x8192x1, .i32⟩
  | 61 => ⟨S1, .i32⟩
  | 62 => ⟨S_, .i32⟩
  | 63 => ⟨S32x8192x1, .i32⟩
  | 64 => ⟨S32x8192x1, .i1⟩
  | 65 => ⟨S1x1x1, .i32⟩
  | 66 => ⟨S32x8192x1, .i32⟩
  | 67 => ⟨S32x8192x1, .i1⟩
  | 68 => ⟨S32x8192x1, .i1⟩
  | 69 => ⟨S_, .i1⟩
  | 70 => ⟨S32x8192, .i1⟩
  | 71 => ⟨S32x8192, .i32⟩
  | 72 => ⟨S_, .i32⟩
  | 73 => ⟨S32x8192, .i32⟩
  | 74 => ⟨S32x8192, .i32⟩
  | 75 => ⟨S_, .i32⟩
  | 76 => ⟨S32x8192, .i32⟩
  | 77 => ⟨S32x8192, .i32⟩
  | 78 => ⟨S_, .i32⟩
  | 79 => ⟨S32x8192, .i32⟩
  | 80 => ⟨S32x8192, .i1⟩
  | 81 => ⟨S_, .i32⟩
  | 82 => ⟨S32x8192, .i32⟩
  | 83 => ⟨S32x8192, .i32⟩
  | 84 => ⟨S32x8192, .i32⟩
  | 85 => ⟨S32x8192x1, .i32⟩
  | 86 => ⟨S1, .i32⟩
  | 87 => ⟨S_, .i32⟩
  | 88 => ⟨S32x8192x1, .i32⟩
  | 89 => ⟨S32x8192x1, .i1⟩
  | 90 => ⟨S1x1x1, .i32⟩
  | 91 => ⟨S32x8192x1, .i32⟩
  | 92 => ⟨S32x8192x1, .i1⟩
  | 93 => ⟨S32x8192x1, .i1⟩
  | 94 => ⟨S_, .i1⟩
  | 95 => ⟨S32x8192, .i1⟩
  | 96 => ⟨S32x8192, .i32⟩
  | 97 => ⟨S_, .i32⟩
  | 98 => ⟨S32x8192, .i32⟩
  | 99 => ⟨S32x8192, .i32⟩
  | 100 => ⟨S_, .i32⟩
  | 101 => ⟨S32x8192, .i32⟩
  | 102 => ⟨S32x8192, .i32⟩
  | 103 => ⟨S_, .i32⟩
  | 104 => ⟨S_, .i32⟩
  | 105 => ⟨S32x8192, .i32⟩
  | 106 => ⟨S32x8192, .i32⟩
  | 107 => ⟨S_, .i32⟩
  | 108 => ⟨S32x8192, .i32⟩
  | 109 => ⟨S32x8192, .i1⟩
  | 110 => ⟨S_, .i32⟩
  | 111 => ⟨S32x8192, .i32⟩
  | 112 => ⟨S32x8192, .i32⟩
  | 113 => ⟨S32x8192, .i32⟩
  | 114 => ⟨S32x8192x1, .i32⟩
  | 115 => ⟨S1, .i32⟩
  | 116 => ⟨S_, .i32⟩
  | 117 => ⟨S32x8192x1, .i32⟩
  | 118 => ⟨S32x8192x1, .i1⟩
  | 119 => ⟨S1x1x1, .i32⟩
  | 120 => ⟨S32x8192x1, .i32⟩
  | 121 => ⟨S32x8192x1, .i1⟩
  | 122 => ⟨S32x8192x1, .i1⟩
  | 123 => ⟨S_, .i1⟩
  | 124 => ⟨S32x8192, .i1⟩
  | 125 => ⟨S32x8192, .i32⟩
  | 126 => ⟨S_, .i32⟩
  | 127 => ⟨S32x8192, .i32⟩
  | _ => ⟨S32x8192, .i32⟩

abbrev hbmTy0_1 (i : Nat) : BufTy := match i % 128 with
  | 0 => ⟨S32x8192, .i32⟩
  | 1 => ⟨S_, .i32⟩
  | 2 => ⟨S32x8192, .i32⟩
  | 3 => ⟨S32x8192, .i32⟩
  | 4 => ⟨S_, .i32⟩
  | 5 => ⟨S32x8192, .i32⟩
  | 6 => ⟨S32x8192, .i1⟩
  | 7 => ⟨S_, .i32⟩
  | 8 => ⟨S32x8192, .i32⟩
  | 9 => ⟨S32x8192, .i32⟩
  | 10 => ⟨S32x8192, .i32⟩
  | 11 => ⟨S32x8192x1, .i32⟩
  | 12 => ⟨S1, .i32⟩
  | 13 => ⟨S_, .i32⟩
  | 14 => ⟨S32x8192x1, .i32⟩
  | 15 => ⟨S32x8192x1, .i1⟩
  | 16 => ⟨S1x1x1, .i32⟩
  | 17 => ⟨S32x8192x1, .i32⟩
  | 18 => ⟨S32x8192x1, .i1⟩
  | 19 => ⟨S32x8192x1, .i1⟩
  | 20 => ⟨S_, .i1⟩
  | 21 => ⟨S32x8192, .i1⟩
  | 22 => ⟨S32x8192, .i32⟩
  | 23 => ⟨S_, .i32⟩
  | 24 => ⟨S32x8192, .i32⟩
  | 25 => ⟨S32x8192, .i32⟩
  | 26 => ⟨S32x8192, .i32⟩
  | 27 => ⟨S32x8192, .f32⟩
  | 28 => ⟨S_, .f32⟩
  | 29 => ⟨S32x8192, .f32⟩
  | 30 => ⟨S32x8192, .f32⟩
  | 31 => ⟨S32x8192, .f32⟩
  | 32 => ⟨S_, .i32⟩
  | 33 => ⟨S32x8192, .i32⟩
  | 34 => ⟨S32x8192, .i1⟩
  | 35 => ⟨S_, .f32⟩
  | 36 => ⟨S32x8192, .f32⟩
  | 37 => ⟨S32x8192, .i1⟩
  | 38 => ⟨S32x8192, .i1⟩
  | 39 => ⟨S32x8192, .f32⟩
  | 40 => ⟨S32x8192, .i32⟩
  | 41 => ⟨S_, .i32⟩
  | 42 => ⟨S32x8192, .i32⟩
  | 43 => ⟨S32x8192, .i32⟩
  | 44 => ⟨S32x8192, .i32⟩
  | 45 => ⟨S_, .i32⟩
  | 46 => ⟨S32x8192, .i32⟩
  | 47 => ⟨S32x8192, .i32⟩
  | 48 => ⟨S32x8192, .i32⟩
  | 49 => ⟨S32x8192, .i32⟩
  | 50 => ⟨S_, .i32⟩
  | 51 => ⟨S32x8192, .i32⟩
  | 52 => ⟨S32x8192, .i32⟩
  | 53 => ⟨S32x8192, .f32⟩
  | 54 => ⟨S_, .f32⟩
  | 55 => ⟨S32x8192, .f32⟩
  | 56 => ⟨S32x8192, .f32⟩
  | 57 => ⟨S32x8192, .f32⟩
  | 58 => ⟨S32x8192, .f32⟩
  | 59 => ⟨S_, .f32⟩
  | 60 => ⟨S32x8192, .f32⟩
  | 61 => ⟨S32x8192, .f32⟩
  | 62 => ⟨S32x8192, .i32⟩
  | 63 => ⟨S32x8192, .i1⟩
  | 64 => ⟨S32x8192, .i1⟩
  | 65 => ⟨S_, .f32⟩
  | 66 => ⟨S_, .f32⟩
  | 67 => ⟨S32x8192, .f32⟩
  | 68 => ⟨S32x8192, .f32⟩
  | 69 => ⟨S32x8192, .i32⟩
  | 70 => ⟨S32x8192, .f32⟩
  | 71 => ⟨S_, .f32⟩
  | 72 => ⟨S32x8192, .f32⟩
  | 73 => ⟨S32x8192, .f32⟩
  | 74 => ⟨S32x8192, .f32⟩
  | 75 => ⟨S_, .i32⟩
  | 76 => ⟨S32x8192, .i32⟩
  | 77 => ⟨S32x8192, .i1⟩
  | 78 => ⟨S_, .f32⟩
  | 79 => ⟨S32x8192, .f32⟩
  | 80 => ⟨S32x8192, .i1⟩
  | 81 => ⟨S32x8192, .i1⟩
  | 82 => ⟨S32x8192, .f32⟩
  | 83 => ⟨S32x8192, .i32⟩
  | 84 => ⟨S_, .i32⟩
  | 85 => ⟨S32x8192, .i32⟩
  | 86 => ⟨S32x8192, .i32⟩
  | 87 => ⟨S32x8192, .i32⟩
  | 88 => ⟨S_, .i32⟩
  | 89 => ⟨S32x8192, .i32⟩
  | 90 => ⟨S32x8192, .i32⟩
  | 91 => ⟨S32x8192, .i32⟩
  | 92 => ⟨S32x8192, .i32⟩
  | 93 => ⟨S32x8192, .f32⟩
  | 94 => ⟨S_, .f32⟩
  | 95 => ⟨S32x8192, .f32⟩
  | 96 => ⟨S32x8192, .f32⟩
  | 97 => ⟨S32x8192, .f32⟩
  | 98 => ⟨S32x8192, .f32⟩
  | 99 => ⟨S_, .f32⟩
  | 100 => ⟨S32x8192, .f32⟩
  | 101 => ⟨S32x8192, .f32⟩
  | 102 => ⟨S32x8192, .i32⟩
  | 103 => ⟨S32x8192, .i1⟩
  | 104 => ⟨S32x8192, .i1⟩
  | 105 => ⟨S_, .f32⟩
  | 106 => ⟨S_, .f32⟩
  | 107 => ⟨S32x8192, .f32⟩
  | 108 => ⟨S32x8192, .f32⟩
  | 109 => ⟨S32x8192, .f32⟩
  | 110 => ⟨S32x8192, .i1⟩
  | 111 => ⟨S_, .f32⟩
  | 112 => ⟨S32x8192, .f32⟩
  | 113 => ⟨S32x8192, .i1⟩
  | 114 => ⟨S32x8192, .i32⟩
  | 115 => ⟨S32x8192, .i32⟩
  | 116 => ⟨S_, .i32⟩
  | 117 => ⟨S_, .i32⟩
  | 118 => ⟨S_, .i32⟩
  | 119 => ⟨S32x8192, .i32⟩
  | 120 => ⟨S32x8192, .i32⟩
  | 121 => ⟨S_, .i32⟩
  | 122 => ⟨S32x8192, .i32⟩
  | 123 => ⟨S32x8192, .i32⟩
  | 124 => ⟨S64x2820, .f32⟩
  | 125 => ⟨S_, .i32⟩
  | 126 => ⟨S_, .f32⟩
  | 127 => ⟨S64x2944, .f32⟩
  | _ => ⟨S32x8192, .i32⟩

abbrev hbmTy0_2 (i : Nat) : BufTy := match i % 128 with
  | 0 => ⟨S64x2944, .bf16⟩
  | 1 => ⟨S1x262144, .i32⟩
  | 2 => ⟨S1x262144, .i32⟩
  | 3 => ⟨S1x262144, .f32⟩
  | 4 => ⟨S262144x64, .f32⟩
  | 5 => ⟨S32x8192x64, .f32⟩
  | _ => ⟨S32x8192, .i32⟩

abbrev hbmTy (i : Nat) : BufTy := match i / 128 with
  | 0 => hbmTy0_0 i
  | 1 => hbmTy0_1 i
  | 2 => hbmTy0_2 i
  | _ => ⟨S32x8192, .i32⟩

abbrev bufTy : (tb : Table) → Fin (tcTables nBuf tb) → BufTy
  | .hbm, ⟨i, _⟩ => hbmTy i
  | .local _ .vmem, ⟨0, _⟩ => ⟨S1x1024, .i32⟩
  | .local _ .vmem, ⟨1, _⟩ => ⟨S1x1024, .i32⟩
  | .local _ .vmem, ⟨2, _⟩ => ⟨S1x1024, .i32⟩
  | .local _ .vmem, ⟨3, _⟩ => ⟨S1x1024, .i32⟩
  | .local _ .vmem, ⟨4, _⟩ => ⟨S1x1024, .f32⟩
  | .local _ .vmem, ⟨5, _⟩ => ⟨S1x1024, .f32⟩
  | .local _ .vmem, ⟨6, _⟩ => ⟨S64x2944, .bf16⟩
  | .local _ .vmem, ⟨7, _⟩ => ⟨S1024x64, .f32⟩
  | .local _ .vmem, ⟨8, _⟩ => ⟨S1024x64, .f32⟩
  | _, _ => ⟨S32x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v13 : Ref sig .tc := ⟨.hbm, 30, rfl⟩
abbrev main_call2_c : Ref sig .tc := ⟨.hbm, 31, rfl⟩
abbrev main_call2_v0 : Ref sig .tc := ⟨.hbm, 32, rfl⟩
abbrev main_v14 : Ref sig .tc := ⟨.hbm, 33, rfl⟩
abbrev main_c_5 : Ref sig .tc := ⟨.hbm, 34, rfl⟩
abbrev main_v15 : Ref sig .tc := ⟨.hbm, 35, rfl⟩
abbrev main_v16 : Ref sig .tc := ⟨.hbm, 36, rfl⟩
abbrev main_c_6 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_v17 : Ref sig .tc := ⟨.hbm, 41, rfl⟩
abbrev main_call4_c : Ref sig .tc := ⟨.hbm, 42, rfl⟩
abbrev main_call4_v0 : Ref sig .tc := ⟨.hbm, 43, rfl⟩
abbrev main_v18 : Ref sig .tc := ⟨.hbm, 44, rfl⟩
abbrev main_v19 : Ref sig .tc := ⟨.hbm, 45, rfl⟩
abbrev main_c_7 : Ref sig .tc := ⟨.hbm, 46, rfl⟩
abbrev main_v20 : Ref sig .tc := ⟨.hbm, 47, rfl⟩
abbrev main_v21 : Ref sig .tc := ⟨.hbm, 48, rfl⟩
abbrev main_c_8 : Ref sig .tc := ⟨.hbm, 49, rfl⟩
abbrev main_call5_v0 : Ref sig .tc := ⟨.hbm, 50, rfl⟩
abbrev main_call5_v1 : Ref sig .tc := ⟨.hbm, 51, rfl⟩
abbrev main_v22 : Ref sig .tc := ⟨.hbm, 52, rfl⟩
abbrev main_call6_c : Ref sig .tc := ⟨.hbm, 53, rfl⟩
abbrev main_call6_v0 : Ref sig .tc := ⟨.hbm, 54, rfl⟩
abbrev main_call6_v1 : Ref sig .tc := ⟨.hbm, 55, rfl⟩
abbrev main_call6_c_0 : Ref sig .tc := ⟨.hbm, 56, rfl⟩
abbrev main_call6_v2 : Ref sig .tc := ⟨.hbm, 57, rfl⟩
abbrev main_call6_v3 : Ref sig .tc := ⟨.hbm, 58, rfl⟩
abbrev main_call6_v4 : Ref sig .tc := ⟨.hbm, 59, rfl⟩
abbrev main_call6_v5 : Ref sig .tc := ⟨.hbm, 60, rfl⟩
abbrev main_call6_c_1 : Ref sig .tc := ⟨.hbm, 61, rfl⟩
abbrev main_call6_c_2 : Ref sig .tc := ⟨.hbm, 62, rfl⟩
abbrev main_call6_v6 : Ref sig .tc := ⟨.hbm, 63, rfl⟩
abbrev main_call6_v7 : Ref sig .tc := ⟨.hbm, 64, rfl⟩
abbrev main_call6_v8 : Ref sig .tc := ⟨.hbm, 65, rfl⟩
abbrev main_call6_v9 : Ref sig .tc := ⟨.hbm, 66, rfl⟩
abbrev main_call6_v10 : Ref sig .tc := ⟨.hbm, 67, rfl⟩
abbrev main_call6_v11 : Ref sig .tc := ⟨.hbm, 68, rfl⟩
abbrev main_call6_c_3 : Ref sig .tc := ⟨.hbm, 69, rfl⟩
abbrev main_call6_v12 : Ref sig .tc := ⟨.hbm, 70, rfl⟩
abbrev main_call6_v13 : Ref sig .tc := ⟨.hbm, 71, rfl⟩
abbrev main_call6_c_4 : Ref sig .tc := ⟨.hbm, 72, rfl⟩
abbrev main_call6_v14 : Ref sig .tc := ⟨.hbm, 73, rfl⟩
abbrev main_v23 : Ref sig .tc := ⟨.hbm, 74, rfl⟩
abbrev main_c_9 : Ref sig .tc := ⟨.hbm, 75, rfl⟩
abbrev main_v24 : Ref sig .tc := ⟨.hbm, 76, rfl⟩
abbrev main_v25 : Ref sig .tc := ⟨.hbm, 77, rfl⟩
abbrev main_call7_c : Ref sig .tc := ⟨.hbm, 78, rfl⟩
abbrev main_call7_v0 : Ref sig .tc := ⟨.hbm, 79, rfl⟩
abbrev main_call7_v1 : Ref sig .tc := ⟨.hbm, 80, rfl⟩
abbrev main_call7_c_0 : Ref sig .tc := ⟨.hbm, 81, rfl⟩
abbrev main_call7_v2 : Ref sig .tc := ⟨.hbm, 82, rfl⟩
abbrev main_call7_v3 : Ref sig .tc := ⟨.hbm, 83, rfl⟩
abbrev main_call7_v4 : Ref sig .tc := ⟨.hbm, 84, rfl⟩
abbrev main_call7_v5 : Ref sig .tc := ⟨.hbm, 85, rfl⟩
abbrev main_call7_c_1 : Ref sig .tc := ⟨.hbm, 86, rfl⟩
abbrev main_call7_c_2 : Ref sig .tc := ⟨.hbm, 87, rfl⟩
abbrev main_call7_v6 : Ref sig .tc := ⟨.hbm, 88, rfl⟩
abbrev main_call7_v7 : Ref sig .tc := ⟨.hbm, 89, rfl⟩
abbrev main_call7_v8 : Ref sig .tc := ⟨.hbm, 90, rfl⟩
abbrev main_call7_v9 : Ref sig .tc := ⟨.hbm, 91, rfl⟩
abbrev main_call7_v10 : Ref sig .tc := ⟨.hbm, 92, rfl⟩
abbrev main_call7_v11 : Ref sig .tc := ⟨.hbm, 93, rfl⟩
abbrev main_call7_c_3 : Ref sig .tc := ⟨.hbm, 94, rfl⟩
abbrev main_call7_v12 : Ref sig .tc := ⟨.hbm, 95, rfl⟩
abbrev main_call7_v13 : Ref sig .tc := ⟨.hbm, 96, rfl⟩
abbrev main_call7_c_4 : Ref sig .tc := ⟨.hbm, 97, rfl⟩
abbrev main_call7_v14 : Ref sig .tc := ⟨.hbm, 98, rfl⟩
abbrev main_v26 : Ref sig .tc := ⟨.hbm, 99, rfl⟩
abbrev main_c_10 : Ref sig .tc := ⟨.hbm, 100, rfl⟩
abbrev main_v27 : Ref sig .tc := ⟨.hbm, 101, rfl⟩
abbrev main_v28 : Ref sig .tc := ⟨.hbm, 102, rfl⟩
abbrev main_c_11 : Ref sig .tc := ⟨.hbm, 103, rfl⟩
abbrev main_call8_v0 : Ref sig .tc := ⟨.hbm, 104, rfl⟩
abbrev main_call8_v1 : Ref sig .tc := ⟨.hbm, 105, rfl⟩
abbrev main_v29 : Ref sig .tc := ⟨.hbm, 106, rfl⟩
abbrev main_call9_c : Ref sig .tc := ⟨.hbm, 107, rfl⟩
abbrev main_call9_v0 : Ref sig .tc := ⟨.hbm, 108, rfl⟩
abbrev main_call9_v1 : Ref sig .tc := ⟨.hbm, 109, rfl⟩
abbrev main_call9_c_0 : Ref sig .tc := ⟨.hbm, 110, rfl⟩
abbrev main_call9_v2 : Ref sig .tc := ⟨.hbm, 111, rfl⟩
abbrev main_call9_v3 : Ref sig .tc := ⟨.hbm, 112, rfl⟩
abbrev main_call9_v4 : Ref sig .tc := ⟨.hbm, 113, rfl⟩
abbrev main_call9_v5 : Ref sig .tc := ⟨.hbm, 114, rfl⟩
abbrev main_call9_c_1 : Ref sig .tc := ⟨.hbm, 115, rfl⟩
abbrev main_call9_c_2 : Ref sig .tc := ⟨.hbm, 116, rfl⟩
abbrev main_call9_v6 : Ref sig .tc := ⟨.hbm, 117, rfl⟩
abbrev main_call9_v7 : Ref sig .tc := ⟨.hbm, 118, rfl⟩
abbrev main_call9_v8 : Ref sig .tc := ⟨.hbm, 119, rfl⟩
abbrev main_call9_v9 : Ref sig .tc := ⟨.hbm, 120, rfl⟩
abbrev main_call9_v10 : Ref sig .tc := ⟨.hbm, 121, rfl⟩
abbrev main_call9_v11 : Ref sig .tc := ⟨.hbm, 122, rfl⟩
abbrev main_call9_c_3 : Ref sig .tc := ⟨.hbm, 123, rfl⟩
abbrev main_call9_v12 : Ref sig .tc := ⟨.hbm, 124, rfl⟩
abbrev main_call9_v13 : Ref sig .tc := ⟨.hbm, 125, rfl⟩
abbrev main_call9_c_4 : Ref sig .tc := ⟨.hbm, 126, rfl⟩
abbrev main_call9_v14 : Ref sig .tc := ⟨.hbm, 127, rfl⟩
abbrev main_v30 : Ref sig .tc := ⟨.hbm, 128, rfl⟩
abbrev main_c_12 : Ref sig .tc := ⟨.hbm, 129, rfl⟩
abbrev main_v31 : Ref sig .tc := ⟨.hbm, 130, rfl⟩
abbrev main_v32 : Ref sig .tc := ⟨.hbm, 131, rfl⟩
abbrev main_call10_c : Ref sig .tc := ⟨.hbm, 132, rfl⟩
abbrev main_call10_v0 : Ref sig .tc := ⟨.hbm, 133, rfl⟩
abbrev main_call10_v1 : Ref sig .tc := ⟨.hbm, 134, rfl⟩
abbrev main_call10_c_0 : Ref sig .tc := ⟨.hbm, 135, rfl⟩
abbrev main_call10_v2 : Ref sig .tc := ⟨.hbm, 136, rfl⟩
abbrev main_call10_v3 : Ref sig .tc := ⟨.hbm, 137, rfl⟩
abbrev main_call10_v4 : Ref sig .tc := ⟨.hbm, 138, rfl⟩
abbrev main_call10_v5 : Ref sig .tc := ⟨.hbm, 139, rfl⟩
abbrev main_call10_c_1 : Ref sig .tc := ⟨.hbm, 140, rfl⟩
abbrev main_call10_c_2 : Ref sig .tc := ⟨.hbm, 141, rfl⟩
abbrev main_call10_v6 : Ref sig .tc := ⟨.hbm, 142, rfl⟩
abbrev main_call10_v7 : Ref sig .tc := ⟨.hbm, 143, rfl⟩
abbrev main_call10_v8 : Ref sig .tc := ⟨.hbm, 144, rfl⟩
abbrev main_call10_v9 : Ref sig .tc := ⟨.hbm, 145, rfl⟩
abbrev main_call10_v10 : Ref sig .tc := ⟨.hbm, 146, rfl⟩
abbrev main_call10_v11 : Ref sig .tc := ⟨.hbm, 147, rfl⟩
abbrev main_call10_c_3 : Ref sig .tc := ⟨.hbm, 148, rfl⟩
abbrev main_call10_v12 : Ref sig .tc := ⟨.hbm, 149, rfl⟩
abbrev main_call10_v13 : Ref sig .tc := ⟨.hbm, 150, rfl⟩
abbrev main_call10_c_4 : Ref sig .tc := ⟨.hbm, 151, rfl⟩
abbrev main_call10_v14 : Ref sig .tc := ⟨.hbm, 152, rfl⟩
abbrev main_v33 : Ref sig .tc := ⟨.hbm, 153, rfl⟩
abbrev main_v34 : Ref sig .tc := ⟨.hbm, 154, rfl⟩
abbrev main_v35 : Ref sig .tc := ⟨.hbm, 155, rfl⟩
abbrev main_cst_13 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_c_14 : Ref sig .tc := ⟨.hbm, 160, rfl⟩
abbrev main_v39 : Ref sig .tc := ⟨.hbm, 161, rfl⟩
abbrev main_v40 : Ref sig .tc := ⟨.hbm, 162, rfl⟩
abbrev main_cst_15 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_c_16 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_c_17 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_c_18 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_cst_19 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩
abbrev main_v59 : Ref sig .tc := ⟨.hbm, 186, rfl⟩
abbrev main_cst_20 : Ref sig .tc := ⟨.hbm, 187, rfl⟩
abbrev main_v60 : Ref sig .tc := ⟨.hbm, 188, rfl⟩
abbrev main_v61 : Ref sig .tc := ⟨.hbm, 189, rfl⟩
abbrev main_v62 : Ref sig .tc := ⟨.hbm, 190, rfl⟩
abbrev main_v63 : Ref sig .tc := ⟨.hbm, 191, rfl⟩
abbrev main_v64 : Ref sig .tc := ⟨.hbm, 192, rfl⟩
abbrev main_cst_21 : Ref sig .tc := ⟨.hbm, 193, rfl⟩
abbrev main_call12_v0 : Ref sig .tc := ⟨.hbm, 194, rfl⟩
abbrev main_call12_v1 : Ref sig .tc := ⟨.hbm, 195, rfl⟩
abbrev main_v65 : Ref sig .tc := ⟨.hbm, 196, rfl⟩
abbrev main_v66 : Ref sig .tc := ⟨.hbm, 197, rfl⟩
abbrev main_v67 : Ref sig .tc := ⟨.hbm, 198, rfl⟩
abbrev main_cst_22 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_c_23 : Ref sig .tc := ⟨.hbm, 203, rfl⟩
abbrev main_v71 : Ref sig .tc := ⟨.hbm, 204, rfl⟩
abbrev main_v72 : Ref sig .tc := ⟨.hbm, 205, rfl⟩
abbrev main_cst_24 : Ref sig .tc := ⟨.hbm, 206, rfl⟩
abbrev main_v73 : Ref sig .tc := ⟨.hbm, 207, rfl⟩
abbrev main_v74 : Ref sig .tc := ⟨.hbm, 208, rfl⟩
abbrev main_v75 : Ref sig .tc := ⟨.hbm, 209, rfl⟩
abbrev main_v76 : Ref sig .tc := ⟨.hbm, 210, rfl⟩
abbrev main_v77 : Ref sig .tc := ⟨.hbm, 211, rfl⟩
abbrev main_c_25 : Ref sig .tc := ⟨.hbm, 212, rfl⟩
abbrev main_v78 : Ref sig .tc := ⟨.hbm, 213, rfl⟩
abbrev main_v79 : Ref sig .tc := ⟨.hbm, 214, rfl⟩
abbrev main_v80 : Ref sig .tc := ⟨.hbm, 215, rfl⟩
abbrev main_c_26 : Ref sig .tc := ⟨.hbm, 216, rfl⟩
abbrev main_v81 : Ref sig .tc := ⟨.hbm, 217, rfl⟩
abbrev main_v82 : Ref sig .tc := ⟨.hbm, 218, rfl⟩
abbrev main_v83 : Ref sig .tc := ⟨.hbm, 219, rfl⟩
abbrev main_v84 : Ref sig .tc := ⟨.hbm, 220, rfl⟩
abbrev main_v85 : Ref sig .tc := ⟨.hbm, 221, rfl⟩
abbrev main_cst_27 : Ref sig .tc := ⟨.hbm, 222, rfl⟩
abbrev main_v86 : Ref sig .tc := ⟨.hbm, 223, rfl⟩
abbrev main_v87 : Ref sig .tc := ⟨.hbm, 224, rfl⟩
abbrev main_v88 : Ref sig .tc := ⟨.hbm, 225, rfl⟩
abbrev main_v89 : Ref sig .tc := ⟨.hbm, 226, rfl⟩
abbrev main_cst_28 : Ref sig .tc := ⟨.hbm, 227, rfl⟩
abbrev main_v90 : Ref sig .tc := ⟨.hbm, 228, rfl⟩
abbrev main_v91 : Ref sig .tc := ⟨.hbm, 229, rfl⟩
abbrev main_v92 : Ref sig .tc := ⟨.hbm, 230, rfl⟩
abbrev main_v93 : Ref sig .tc := ⟨.hbm, 231, rfl⟩
abbrev main_v94 : Ref sig .tc := ⟨.hbm, 232, rfl⟩
abbrev main_cst_29 : Ref sig .tc := ⟨.hbm, 233, rfl⟩
abbrev main_call14_v0 : Ref sig .tc := ⟨.hbm, 234, rfl⟩
abbrev main_call14_v1 : Ref sig .tc := ⟨.hbm, 235, rfl⟩
abbrev main_v95 : Ref sig .tc := ⟨.hbm, 236, rfl⟩
abbrev main_v96 : Ref sig .tc := ⟨.hbm, 237, rfl⟩
abbrev main_v97 : Ref sig .tc := ⟨.hbm, 238, rfl⟩
abbrev main_cst_30 : Ref sig .tc := ⟨.hbm, 239, rfl⟩
abbrev main_v98 : Ref sig .tc := ⟨.hbm, 240, rfl⟩
abbrev main_v99 : Ref sig .tc := ⟨.hbm, 241, rfl⟩
abbrev main_v100 : Ref sig .tc := ⟨.hbm, 242, rfl⟩
abbrev main_v101 : Ref sig .tc := ⟨.hbm, 243, rfl⟩
abbrev main_c_31 : Ref sig .tc := ⟨.hbm, 244, rfl⟩
abbrev main_c_32 : Ref sig .tc := ⟨.hbm, 245, rfl⟩
abbrev main_call17_v0 : Ref sig .tc := ⟨.hbm, 246, rfl⟩
abbrev main_call17_v1 : Ref sig .tc := ⟨.hbm, 247, rfl⟩
abbrev main_call17_v2 : Ref sig .tc := ⟨.hbm, 248, rfl⟩
abbrev main_call17_v3 : Ref sig .tc := ⟨.hbm, 249, rfl⟩
abbrev main_call17_v4 : Ref sig .tc := ⟨.hbm, 250, rfl⟩
abbrev main_v102 : Ref sig .tc := ⟨.hbm, 251, rfl⟩
abbrev main_v103 : Ref sig .tc := ⟨.hbm, 252, rfl⟩
abbrev main_c_33 : Ref sig .tc := ⟨.hbm, 253, rfl⟩
abbrev main_call18_v0 : Ref sig .tc := ⟨.hbm, 254, rfl⟩
abbrev main_v104 : Ref sig .tc := ⟨.hbm, 255, rfl⟩
abbrev main_v105 : Ref sig .tc := ⟨.hbm, 256, rfl⟩
abbrev main_v106 : Ref sig .tc := ⟨.hbm, 257, rfl⟩
abbrev main_v107 : Ref sig .tc := ⟨.hbm, 258, rfl⟩
abbrev main_v108 : Ref sig .tc := ⟨.hbm, 259, rfl⟩
abbrev main_v109 : Ref sig .tc := ⟨.hbm, 260, rfl⟩
abbrev main_v110 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32x8192 : S_.BroadcastsInDim S32x8192 (![] : Fin 0 → Fin S32x8192.rank)
  bcast_S_S1 : S_.BroadcastsInDim S1 (![] : Fin 0 → Fin S1.rank)
  bcast_S_S64 : S_.BroadcastsInDim S64 (![] : Fin 0 → Fin S64.rank)
  bcast_S8192_S1x8192_1 : S8192.BroadcastsInDim S1x8192 (![1] : Fin 1 → Fin S1x8192.rank)
  slices_S32x8192_S32x8191_0_0 : S32x8192.Slices ![0, 0] S32x8191
  slices_S32x8192_S32x8191_0_1 : S32x8192.Slices ![0, 1] S32x8191
  bcast_S_S32x1 : S_.BroadcastsInDim S32x1 (![] : Fin 0 → Fin S32x1.rank)
  concatenates_S32x1_S32x8191_S32x8192_d1 : Shape.Concatenates [S32x1, S32x8191] S32x8192 1
  concatenates_S32x8191_S32x1_S32x8192_d1 : Shape.Concatenates [S32x8191, S32x1] S32x8192 1
  bcast_S1x8192_S32x8192_0_1 : S1x8192.BroadcastsInDim S32x8192 (![0, 1] : Fin 2 → Fin S32x8192.rank)
  bcast_S_S_ : S_.BroadcastsInDim S_ (![] : Fin 0 → Fin S_.rank)
  reduceWindows_S32x8192_S32x8192_w1s1p0_0_w8192s1p8191_0 : S32x8192.ReduceWindows (![1, 8192] : Fin 2 → Nat) ![1, 1] ![0, 8191] ![0, 0] S32x8192
  h_S_ : 0 < S_.numel
  bcast_S_S1x8192 : S_.BroadcastsInDim S1x8192 (![] : Fin 0 → Fin S1x8192.rank)
  reduceWindows_S32x8192_S32x8192_w1s1p0_0_w8192s1p0_8191 : S32x8192.ReduceWindows (![1, 8192] : Fin 2 → Nat) ![1, 1] ![0, 0] ![0, 8191] S32x8192
  shapeCasts_S32x8192_S32x8192x1 : S32x8192.ShapeCasts S32x8192x1
  bcast_S_S32x8192x1 : S_.BroadcastsInDim S32x8192x1 (![] : Fin 0 → Fin S32x8192x1.rank)
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x8192_d2 : S32x8192x1.ReducesTo [2] S32x8192
  transposes_S2820x64_S64x2820_1_0 : S2820x64.Transposes [1, 0] S64x2820
  pads_S64x2820_S64x2944_000_01240 : S64x2820.Pads (![0, 0] : Fin 2 → Nat) ![0, 124] ![0, 0] S64x2944
  bitsLt_bf16_f32 : FTy.bits .bf16 < FTy.bits .f32
  shapeCasts_S32x8192_S1x262144 : S32x8192.ShapeCasts S1x262144
  iota_S2944x1024_d0_w32 : S2944x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2944x1024 : S1x1024.Broadcasts S2944x1024
  inb_S64x2944_S64x2944_0_0 : ∀ a, (![0, 0] : Fin 2 → Nat) a + S64x2944.size a ≤ S64x2944.size a
  h_S64x2944 : 0 < S64x2944.numel
  shapeCasts_S64x2944_S64x2944 : S64x2944.ShapeCasts S64x2944
  transposes_S64x1024_p1_0_S1024x64 : S64x1024.Transposes [1, 0] S1024x64
  inb_S1024x64_S1024x64_0_0 : ∀ a, (![0, 0] : Fin 2 → Nat) a + S1024x64.size a ≤ S1024x64.size a
  h_S1024x64 : 0 < S1024x64.numel
  shapeCasts_S262144x64_S32x8192x64 : S262144x64.ShapeCasts S32x8192x64
  scatter_S2820x64_S1_S64_0_0_0_0_wf : ScatterDims.WF S2820x64 S1 S64 [0] [0] [0] 0
  gather_S32x8192_S32x8192x1_S32x8192_n_1_0_0_1_2_11_wf : GatherDims.WF S32x8192 S32x8192x1 S32x8192 [] [1] [0] [1] [0] 2 ![1, 1]
  dot_S64x2944_S2944x1024_S64x1024_1_0_0_1_n_n_wf : DotDims.WF S64x2944 S2944x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x262144.size a
  hwx0_0 : ∀ i : grid0.Coords, EltTy.bits .i32 = 32 ∨ (Rect.block (s := S1x262144) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x262144.size a
  hwx0_1 : ∀ i : grid0.Coords, EltTy.bits .i32 = 32 ∨ (Rect.block (s := S1x262144) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x262144.size a
  hwx0_2 : ∀ i : grid0.Coords, EltTy.bits .f32 = 32 ∨ (Rect.block (s := S1x262144) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2944.size a ≤ S64x2944.size a
  hwx0_3 : ∀ i : grid0.Coords, EltTy.bits .bf16 = 32 ∨ (Rect.block (s := S64x2944) S64x2944.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S262144x64.size a
  hwx0_4 : ∀ i : grid0.Coords, EltTy.bits .f32 = 32 ∨ (Rect.block (s := S262144x64) S1024x64.size (cc0_transform_4 i) (hinb0_4 i)).WholeWords (EltTy.packing .f32)

variable [Facts₀]

def scatter_S2820x64_S1_S64_0_0_0_0 : ScatterDims S2820x64 S1 S64 where
  updateWindowDims := [0]
  insertedWindowDims := [0]
  scatterDimsToOperandDims := [0]
  indexVectorDim := 0
  wf := scatter_S2820x64_S1_S64_0_0_0_0_wf
def gather_S32x8192_S32x8192x1_S32x8192_n_1_0_0_1_2_11 : GatherDims S32x8192 S32x8192x1 S32x8192 where
  offsetDims := []
  collapsedSliceDims := [1]
  operandBatchingDims := [0]
  startIndicesBatchingDims := [0]
  startIndexMap := [1]
  indexVectorDim := 2
  sliceSizes := ![1, 1]
  wf := gather_S32x8192_S32x8192x1_S32x8192_n_1_0_0_1_2_11_wf
def dot_S64x2944_S2944x1024_S64x1024_1_0_0_1_n_n : DotDims S64x2944 S2944x1024 S64x1024 where
  lhsContracting := [1]
  rhsContracting := [0]
  lhsNonContracting := [0]
  rhsNonContracting := [1]
  lhsBatch := []
  rhsBatch := []
  wf := dot_S64x2944_S2944x1024_S64x1024_1_0_0_1_n_n_wf

abbrev win0_0 : Pipeline.Window sig grid0 :=
  Pipeline.Window.ofSpec (Memref.whole main_v106) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v107) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v108) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v105) S64x2944.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v109) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8192 : Shape := ⟨2, ![32, 8192]⟩
abbrev S2820x64 : Shape := ⟨2, ![2820, 64]⟩
abbrev S_ : Shape := ⟨0, ![]⟩
abbrev S1 : Shape := ⟨1, ![1]⟩
abbrev S64 : Shape := ⟨1, ![64]⟩
abbrev S8192 : Shape := ⟨1, ![8192]⟩
abbrev S1x8192 : Shape := ⟨2, ![1, 8192]⟩
abbrev S32x8191 : Shape := ⟨2, ![32, 8191]⟩
abbrev S32x1 : Shape := ⟨2, ![32, 1]⟩
abbrev S32x8192x1 : Shape := ⟨3, ![32, 8192, 1]⟩
abbrev S1x1x1 : Shape := ⟨3, ![1, 1, 1]⟩
abbrev S32x8192x64 : Shape := ⟨3, ![32, 8192, 64]⟩

abbrev nBuf : Space → Nat
  | .hbm => 263
  | .vmem => 0
  | .smem => 0
  | _ => 0

abbrev hbmTy0_0 (i : Nat) : BufTy := match i % 128 with
  | 0 => ⟨S32x8192, .i32⟩
  | 1 => ⟨S2820x64, .f32⟩
  | 2 => ⟨S_, .i32⟩
  | 3 => ⟨S1, .i32⟩
  | 4 => ⟨S_, .f32⟩
  | 5 => ⟨S64, .f32⟩
  | 6 => ⟨S2820x64, .f32⟩
  | 7 => ⟨S8192, .i32⟩
  | 8 => ⟨S1x8192, .i32⟩
  | 9 => ⟨S32x8191, .i32⟩
  | 10 => ⟨S32x8191, .i32⟩
  | 11 => ⟨S32x8191, .i1⟩
  | 12 => ⟨S_, .i1⟩
  | 13 => ⟨S32x1, .i1⟩
  | 14 => ⟨S32x8192, .i1⟩
  | 15 => ⟨S_, .i1⟩
  | 16 => ⟨S32x1, .i1⟩
  | 17 => ⟨S32x8192, .i1⟩
  | 18 => ⟨S_, .i32⟩
  | 19 => ⟨S_, .i32⟩
  | 20 => ⟨S32x8192, .i32⟩
  | 21 => ⟨S32x8192, .i32⟩
  | 22 => ⟨S32x8192, .i32⟩
  | 23 => ⟨S_, .i32⟩
  | 24 => ⟨S_, .i32⟩
  | 25 => ⟨S32x8192, .i32⟩
  | 26 => ⟨S_, .i32⟩
  | 27 => ⟨S1x8192, .i32⟩
  | 28 => ⟨S1x8192, .i32⟩
  | 29 => ⟨S_, .i32⟩
  | 30 => ⟨S_, .i32⟩
  | 31 => ⟨S32x8192, .i32⟩
  | 32 => ⟨S32x8192, .i32⟩
  | 33 => ⟨S32x8192, .i32⟩
  | 34 => ⟨S_, .i32⟩
  | 35 => ⟨S_, .i32⟩
  | 36 => ⟨S32x8192, .i32⟩
  | 37 => ⟨S32x8192, .i32⟩
  | 38 => ⟨S_, .i32⟩
  | 39 => ⟨S32x8192, .i32⟩
  | 40 => ⟨S32x8192, .i32⟩
  | 41 => ⟨S_, .i32⟩
  | 42 => ⟨S_, .i32⟩
  | 43 => ⟨S32x8192, .i32⟩
  | 44 => ⟨S32x8192, .i32⟩
  | 45 => ⟨S_, .i32⟩
  | 46 => ⟨S32x8192, .i32⟩
  | 47 => ⟨S32x8192, .i1⟩
  | 48 => ⟨S_, .i32⟩
  | 49 => ⟨S32x8192, .i32⟩
  | 50 => ⟨S32x8192, .i32⟩
  | 51 => ⟨S32x8192, .i32⟩
  | 52 => ⟨S32x8192x1, .i32⟩
  | 53 => ⟨S1, .i32⟩
  | 54 => ⟨S_, .i32⟩
  | 55 => ⟨S32x8192x1, .i32⟩
  | 56 => ⟨S32x8192x1, .i1⟩
  | 57 => ⟨S1x1x1, .i32⟩
  | 58 => ⟨S32x8192x1, .i32⟩
  | 59 => ⟨S32x8192x1, .i1⟩
  | 60 => ⟨S32x8192x1, .i1⟩
  | 61 => ⟨S_, .i1⟩
  | 62 => ⟨S32x8192, .i1⟩
  | 63 => ⟨S32x8192, .i32⟩
  | 64 => ⟨S_, .i32⟩
  | 65 => ⟨S32x8192, .i32⟩
  | 66 => ⟨S32x8192, .i32⟩
  | 67 => ⟨S_, .i32⟩
  | 68 => ⟨S32x8192, .i32⟩
  | 69 => ⟨S32x8192, .i32⟩
  | 70 => ⟨S_, .i32⟩
  | 71 => ⟨S32x8192, .i32⟩
  | 72 => ⟨S32x8192, .i1⟩
  | 73 => ⟨S_, .i32⟩
  | 74 => ⟨S32x8192, .i32⟩
  | 75 => ⟨S32x8192, .i32⟩
  | 76 => ⟨S32x8192, .i32⟩
  | 77 => ⟨S32x8192x1, .i32⟩
  | 78 => ⟨S1, .i32⟩
  | 79 => ⟨S_, .i32⟩
  | 80 => ⟨S32x8192x1, .i32⟩
  | 81 => ⟨S32x8192x1, .i1⟩
  | 82 => ⟨S1x1x1, .i32⟩
  | 83 => ⟨S32x8192x1, .i32⟩
  | 84 => ⟨S32x8192x1, .i1⟩
  | 85 => ⟨S32x8192x1, .i1⟩
  | 86 => ⟨S_, .i1⟩
  | 87 => ⟨S32x8192, .i1⟩
  | 88 => ⟨S32x8192, .i32⟩
  | 89 => ⟨S_, .i32⟩
  | 90 => ⟨S32x8192, .i32⟩
  | 91 => ⟨S32x8192, .i32⟩
  | 92 => ⟨S_, .i32⟩
  | 93 => ⟨S32x8192, .i32⟩
  | 94 => ⟨S32x8192, .i32⟩
  | 95 => ⟨S_, .i32⟩
  | 96 => ⟨S_, .i32⟩
  | 97 => ⟨S32x8192, .i32⟩
  | 98 => ⟨S32x8192, .i32⟩
  | 99 => ⟨S_, .i32⟩
  | 100 => ⟨S32x8192, .i32⟩
  | 101 => ⟨S32x8192, .i1⟩
  | 102 => ⟨S_, .i32⟩
  | 103 => ⟨S32x8192, .i32⟩
  | 104 => ⟨S32x8192, .i32⟩
  | 105 => ⟨S32x8192, .i32⟩
  | 106 => ⟨S32x8192x1, .i32⟩
  | 107 => ⟨S1, .i32⟩
  | 108 => ⟨S_, .i32⟩
  | 109 => ⟨S32x8192x1, .i32⟩
  | 110 => ⟨S32x8192x1, .i1⟩
  | 111 => ⟨S1x1x1, .i32⟩
  | 112 => ⟨S32x8192x1, .i32⟩
  | 113 => ⟨S32x8192x1, .i1⟩
  | 114 => ⟨S32x8192x1, .i1⟩
  | 115 => ⟨S_, .i1⟩
  | 116 => ⟨S32x8192, .i1⟩
  | 117 => ⟨S32x8192, .i32⟩
  | 118 => ⟨S_, .i32⟩
  | 119 => ⟨S32x8192, .i32⟩
  | 120 => ⟨S32x8192, .i32⟩
  | 121 => ⟨S_, .i32⟩
  | 122 => ⟨S32x8192, .i32⟩
  | 123 => ⟨S32x8192, .i32⟩
  | 124 => ⟨S_, .i32⟩
  | 125 => ⟨S32x8192, .i32⟩
  | 126 => ⟨S32x8192, .i1⟩
  | 127 => ⟨S_, .i32⟩
  | _ => ⟨S32x8192, .i32⟩

abbrev hbmTy0_1 (i : Nat) : BufTy := match i % 128 with
  | 0 => ⟨S32x8192, .i32⟩
  | 1 => ⟨S32x8192, .i32⟩
  | 2 => ⟨S32x8192, .i32⟩
  | 3 => ⟨S32x8192x1, .i32⟩
  | 4 => ⟨S1, .i32⟩
  | 5 => ⟨S_, .i32⟩
  | 6 => ⟨S32x8192x1, .i32⟩
  | 7 => ⟨S32x8192x1, .i1⟩
  | 8 => ⟨S1x1x1, .i32⟩
  | 9 => ⟨S32x8192x1, .i32⟩
  | 10 => ⟨S32x8192x1, .i1⟩
  | 11 => ⟨S32x8192x1, .i1⟩
  | 12 => ⟨S_, .i1⟩
  | 13 => ⟨S32x8192, .i1⟩
  | 14 => ⟨S32x8192, .i32⟩
  | 15 => ⟨S_, .i32⟩
  | 16 => ⟨S32x8192, .i32⟩
  | 17 => ⟨S32x8192, .i32⟩
  | 18 => ⟨S32x8192, .i32⟩
  | 19 => ⟨S32x8192, .f32⟩
  | 20 => ⟨S_, .f32⟩
  | 21 => ⟨S32x8192, .f32⟩
  | 22 => ⟨S32x8192, .f32⟩
  | 23 => ⟨S32x8192, .f32⟩
  | 24 => ⟨S_, .i32⟩
  | 25 => ⟨S32x8192, .i32⟩
  | 26 => ⟨S32x8192, .i1⟩
  | 27 => ⟨S_, .f32⟩
  | 28 => ⟨S32x8192, .f32⟩
  | 29 => ⟨S32x8192, .i1⟩
  | 30 => ⟨S32x8192, .i1⟩
  | 31 => ⟨S32x8192, .f32⟩
  | 32 => ⟨S32x8192, .i32⟩
  | 33 => ⟨S_, .i32⟩
  | 34 => ⟨S32x8192, .i32⟩
  | 35 => ⟨S32x8192, .i32⟩
  | 36 => ⟨S32x8192, .i32⟩
  | 37 => ⟨S_, .i32⟩
  | 38 => ⟨S32x8192, .i32⟩
  | 39 => ⟨S32x8192, .i32⟩
  | 40 => ⟨S32x8192, .i32⟩
  | 41 => ⟨S32x8192, .i32⟩
  | 42 => ⟨S_, .i32⟩
  | 43 => ⟨S32x8192, .i32⟩
  | 44 => ⟨S32x8192, .i32⟩
  | 45 => ⟨S32x8192, .f32⟩
  | 46 => ⟨S_, .f32⟩
  | 47 => ⟨S32x8192, .f32⟩
  | 48 => ⟨S32x8192, .f32⟩
  | 49 => ⟨S32x8192, .f32⟩
  | 50 => ⟨S32x8192, .f32⟩
  | 51 => ⟨S_, .f32⟩
  | 52 => ⟨S32x8192, .f32⟩
  | 53 => ⟨S32x8192, .f32⟩
  | 54 => ⟨S32x8192, .i32⟩
  | 55 => ⟨S32x8192, .i1⟩
  | 56 => ⟨S32x8192, .i1⟩
  | 57 => ⟨S_, .f32⟩
  | 58 => ⟨S_, .f32⟩
  | 59 => ⟨S32x8192, .f32⟩
  | 60 => ⟨S32x8192, .f32⟩
  | 61 => ⟨S32x8192, .i32⟩
  | 62 => ⟨S32x8192, .f32⟩
  | 63 => ⟨S_, .f32⟩
  | 64 => ⟨S32x8192, .f32⟩
  | 65 => ⟨S32x8192, .f32⟩
  | 66 => ⟨S32x8192, .f32⟩
  | 67 => ⟨S_, .i32⟩
  | 68 => ⟨S32x8192, .i32⟩
  | 69 => ⟨S32x8192, .i1⟩
  | 70 => ⟨S_, .f32⟩
  | 71 => ⟨S32x8192, .f32⟩
  | 72 => ⟨S32x8192, .i1⟩
  | 73 => ⟨S32x8192, .i1⟩
  | 74 => ⟨S32x8192, .f32⟩
  | 75 => ⟨S32x8192, .i32⟩
  | 76 => ⟨S_, .i32⟩
  | 77 => ⟨S32x8192, .i32⟩
  | 78 => ⟨S32x8192, .i32⟩
  | 79 => ⟨S32x8192, .i32⟩
  | 80 => ⟨S_, .i32⟩
  | 81 => ⟨S32x8192, .i32⟩
  | 82 => ⟨S32x8192, .i32⟩
  | 83 => ⟨S32x8192, .i32⟩
  | 84 => ⟨S32x8192, .i32⟩
  | 85 => ⟨S32x8192, .f32⟩
  | 86 => ⟨S_, .f32⟩
  | 87 => ⟨S32x8192, .f32⟩
  | 88 => ⟨S32x8192, .f32⟩
  | 89 => ⟨S32x8192, .f32⟩
  | 90 => ⟨S32x8192, .f32⟩
  | 91 => ⟨S_, .f32⟩
  | 92 => ⟨S32x8192, .f32⟩
  | 93 => ⟨S32x8192, .f32⟩
  | 94 => ⟨S32x8192, .i32⟩
  | 95 => ⟨S32x8192, .i1⟩
  | 96 => ⟨S32x8192, .i1⟩
  | 97 => ⟨S_, .f32⟩
  | 98 => ⟨S_, .f32⟩
  | 99 => ⟨S32x8192, .f32⟩
  | 100 => ⟨S32x8192, .f32⟩
  | 101 => ⟨S32x8192, .f32⟩
  | 102 => ⟨S32x8192, .i1⟩
  | 103 => ⟨S_, .f32⟩
  | 104 => ⟨S32x8192, .f32⟩
  | 105 => ⟨S32x8192, .i1⟩
  | 106 => ⟨S32x8192, .i32⟩
  | 107 => ⟨S32x8192, .i32⟩
  | 108 => ⟨S_, .i32⟩
  | 109 => ⟨S32x8192, .i32⟩
  | 110 => ⟨S32x8192, .i1⟩
  | 111 => ⟨S_, .i32⟩
  | 112 => ⟨S32x8192, .i32⟩
  | 113 => ⟨S32x8192, .i32⟩
  | 114 => ⟨S32x8192, .i32⟩
  | 115 => ⟨S32x8192x1, .i32⟩
  | 116 => ⟨S32x8192x64, .f32⟩
  | 117 => ⟨S_, .i32⟩
  | 118 => ⟨S32x8192, .i32⟩
  | 119 => ⟨S32x8192, .i1⟩
  | 120 => ⟨S_, .i32⟩
  | 121 => ⟨S32x8192, .i32⟩
  | 122 => ⟨S32x8192, .i32⟩
  | 123 => ⟨S32x8192, .i32⟩
  | 124 => ⟨S32x8192x1, .i32⟩
  | 125 => ⟨S32x8192x64, .f32⟩
  | 126 => ⟨S32x8192x1, .f32⟩
  | 127 => ⟨S_, .f32⟩
  | _ => ⟨S32x8192, .i32⟩

abbrev hbmTy0_2 (i : Nat) : BufTy := match i % 128 with
  | 0 => ⟨S32x8192x1, .f32⟩
  | 1 => ⟨S32x8192x1, .f32⟩
  | 2 => ⟨S32x8192x64, .f32⟩
  | 3 => ⟨S32x8192x64, .f32⟩
  | 4 => ⟨S32x8192x64, .f32⟩
  | 5 => ⟨S32x8192x64, .f32⟩
  | 6 => ⟨S32x8192x64, .f32⟩
  | _ => ⟨S32x8192, .i32⟩

abbrev hbmTy (i : Nat) : BufTy := match i / 128 with
  | 0 => hbmTy0_0 i
  | 1 => hbmTy0_1 i
  | 2 => hbmTy0_2 i
  | _ => ⟨S32x8192, .i32⟩

abbrev bufTy : (tb : Table) → Fin (tcTables nBuf tb) → BufTy
  | .hbm, ⟨i, _⟩ => hbmTy i
  | _, _ => ⟨S32x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_call1_c : Ref sig .tc := ⟨.hbm, 23, rfl⟩
abbrev main_call1_v0 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_call4_v0 : Ref sig .tc := ⟨.hbm, 42, rfl⟩
abbrev main_call4_v1 : Ref sig .tc := ⟨.hbm, 43, rfl⟩
abbrev main_v21 : Ref sig .tc := ⟨.hbm, 44, rfl⟩
abbrev main_call5_c : Ref sig .tc := ⟨.hbm, 45, rfl⟩
abbrev main_call5_v0 : Ref sig .tc := ⟨.hbm, 46, rfl⟩
abbrev main_call5_v1 : Ref sig .tc := ⟨.hbm, 47, rfl⟩
abbrev main_call5_c_0 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_call5_v5 : Ref sig .tc := ⟨.hbm, 52, rfl⟩
abbrev main_call5_c_1 : Ref sig .tc := ⟨.hbm, 53, rfl⟩
abbrev main_call5_c_2 : Ref sig .tc := ⟨.hbm, 54, rfl⟩
abbrev main_call5_v6 : Ref sig .tc := ⟨.hbm, 55, rfl⟩
abbrev main_call5_v7 : Ref sig .tc := ⟨.hbm, 56, rfl⟩
abbrev main_call5_v8 : Ref sig .tc := ⟨.hbm, 57, rfl⟩
abbrev main_call5_v9 : Ref sig .tc := ⟨.hbm, 58, rfl⟩
abbrev main_call5_v10 : Ref sig .tc := ⟨.hbm, 59, rfl⟩
abbrev main_call5_v11 : Ref sig .tc := ⟨.hbm, 60, rfl⟩
abbrev main_call5_c_3 : Ref sig .tc := ⟨.hbm, 61, rfl⟩
abbrev main_call5_v12 : Ref sig .tc := ⟨.hbm, 62, rfl⟩
abbrev main_call5_v13 : Ref sig .tc := ⟨.hbm, 63, rfl⟩
abbrev main_call5_c_4 : Ref sig .tc := ⟨.hbm, 64, rfl⟩
abbrev main_call5_v14 : Ref sig .tc := ⟨.hbm, 65, rfl⟩
abbrev main_v22 : Ref sig .tc := ⟨.hbm, 66, rfl⟩
abbrev main_c_7 : Ref sig .tc := ⟨.hbm, 67, rfl⟩
abbrev main_v23 : Ref sig .tc := ⟨.hbm, 68, rfl⟩
abbrev main_v24 : Ref sig .tc := ⟨.hbm, 69, rfl⟩
abbrev main_call6_c : Ref sig .tc := ⟨.hbm, 70, rfl⟩
abbrev main_call6_v0 : Ref sig .tc := ⟨.hbm, 71, rfl⟩
abbrev main_call6_v1 : Ref sig .tc := ⟨.hbm, 72, rfl⟩
abbrev main_call6_c_0 : Ref sig .tc := ⟨.hbm, 73, rfl⟩
abbrev main_call6_v2 : Ref sig .tc := ⟨.hbm, 74, rfl⟩
abbrev main_call6_v3 : Ref sig .tc := ⟨.hbm, 75, rfl⟩
abbrev main_call6_v4 : Ref sig .tc := ⟨.hbm, 76, rfl⟩
abbrev main_call6_v5 : Ref sig .tc := ⟨.hbm, 77, rfl⟩
abbrev main_call6_c_1 : Ref sig .tc := ⟨.hbm, 78, rfl⟩
abbrev main_call6_c_2 : Ref sig .tc := ⟨.hbm, 79, rfl⟩
abbrev main_call6_v6 : Ref sig .tc := ⟨.hbm, 80, rfl⟩
abbrev main_call6_v7 : Ref sig .tc := ⟨.hbm, 81, rfl⟩
abbrev main_call6_v8 : Ref sig .tc := ⟨.hbm, 82, rfl⟩
abbrev main_call6_v9 : Ref sig .tc := ⟨.hbm, 83, rfl⟩
abbrev main_call6_v10 : Ref sig .tc := ⟨.hbm, 84, rfl⟩
abbrev main_call6_v11 : Ref sig .tc := ⟨.hbm, 85, rfl⟩
abbrev main_call6_c_3 : Ref sig .tc := ⟨.hbm, 86, rfl⟩
abbrev main_call6_v12 : Ref sig .tc := ⟨.hbm, 87, rfl⟩
abbrev main_call6_v13 : Ref sig .tc := ⟨.hbm, 88, rfl⟩
abbrev main_call6_c_4 : Ref sig .tc := ⟨.hbm, 89, rfl⟩
abbrev main_call6_v14 : Ref sig .tc := ⟨.hbm, 90, rfl⟩
abbrev main_v25 : Ref sig .tc := ⟨.hbm, 91, rfl⟩
abbrev main_c_8 : Ref sig .tc := ⟨.hbm, 92, rfl⟩
abbrev main_v26 : Ref sig .tc := ⟨.hbm, 93, rfl⟩
abbrev main_v27 : Ref sig .tc := ⟨.hbm, 94, rfl⟩
abbrev main_c_9 : Ref sig .tc := ⟨.hbm, 95, rfl⟩
abbrev main_call7_v0 : Ref sig .tc := ⟨.hbm, 96, rfl⟩
abbrev main_call7_v1 : Ref sig .tc := ⟨.hbm, 97, rfl⟩
abbrev main_v28 : Ref sig .tc := ⟨.hbm, 98, rfl⟩
abbrev main_call8_c : Ref sig .tc := ⟨.hbm, 99, rfl⟩
abbrev main_call8_v0 : Ref sig .tc := ⟨.hbm, 100, rfl⟩
abbrev main_call8_v1 : Ref sig .tc := ⟨.hbm, 101, rfl⟩
abbrev main_call8_c_0 : Ref sig .tc := ⟨.hbm, 102, rfl⟩
abbrev main_call8_v2 : Ref sig .tc := ⟨.hbm, 103, rfl⟩
abbrev main_call8_v3 : Ref sig .tc := ⟨.hbm, 104, rfl⟩
abbrev main_call8_v4 : Ref sig .tc := ⟨.hbm, 105, rfl⟩
abbrev main_call8_v5 : Ref sig .tc := ⟨.hbm, 106, rfl⟩
abbrev main_call8_c_1 : Ref sig .tc := ⟨.hbm, 107, rfl⟩
abbrev main_call8_c_2 : Ref sig .tc := ⟨.hbm, 108, rfl⟩
abbrev main_call8_v6 : Ref sig .tc := ⟨.hbm, 109, rfl⟩
abbrev main_call8_v7 : Ref sig .tc := ⟨.hbm, 110, rfl⟩
abbrev main_call8_v8 : Ref sig .tc := ⟨.hbm, 111, rfl⟩
abbrev main_call8_v9 : Ref sig .tc := ⟨.hbm, 112, rfl⟩
abbrev main_call8_v10 : Ref sig .tc := ⟨.hbm, 113, rfl⟩
abbrev main_call8_v11 : Ref sig .tc := ⟨.hbm, 114, rfl⟩
abbrev main_call8_c_3 : Ref sig .tc := ⟨.hbm, 115, rfl⟩
abbrev main_call8_v12 : Ref sig .tc := ⟨.hbm, 116, rfl⟩
abbrev main_call8_v13 : Ref sig .tc := ⟨.hbm, 117, rfl⟩
abbrev main_call8_c_4 : Ref sig .tc := ⟨.hbm, 118, rfl⟩
abbrev main_call8_v14 : Ref sig .tc := ⟨.hbm, 119, rfl⟩
abbrev main_v29 : Ref sig .tc := ⟨.hbm, 120, rfl⟩
abbrev main_c_10 : Ref sig .tc := ⟨.hbm, 121, rfl⟩
abbrev main_v30 : Ref sig .tc := ⟨.hbm, 122, rfl⟩
abbrev main_v31 : Ref sig .tc := ⟨.hbm, 123, rfl⟩
abbrev main_call9_c : Ref sig .tc := ⟨.hbm, 124, rfl⟩
abbrev main_call9_v0 : Ref sig .tc := ⟨.hbm, 125, rfl⟩
abbrev main_call9_v1 : Ref sig .tc := ⟨.hbm, 126, rfl⟩
abbrev main_call9_c_0 : Ref sig .tc := ⟨.hbm, 127, rfl⟩
abbrev main_call9_v2 : Ref sig .tc := ⟨.hbm, 128, rfl⟩
abbrev main_call9_v3 : Ref sig .tc := ⟨.hbm, 129, rfl⟩
abbrev main_call9_v4 : Ref sig .tc := ⟨.hbm, 130, rfl⟩
abbrev main_call9_v5 : Ref sig .tc := ⟨.hbm, 131, rfl⟩
abbrev main_call9_c_1 : Ref sig .tc := ⟨.hbm, 132, rfl⟩
abbrev main_call9_c_2 : Ref sig .tc := ⟨.hbm, 133, rfl⟩
abbrev main_call9_v6 : Ref sig .tc := ⟨.hbm, 134, rfl⟩
abbrev main_call9_v7 : Ref sig .tc := ⟨.hbm, 135, rfl⟩
abbrev main_call9_v8 : Ref sig .tc := ⟨.hbm, 136, rfl⟩
abbrev main_call9_v9 : Ref sig .tc := ⟨.hbm, 137, rfl⟩
abbrev main_call9_v10 : Ref sig .tc := ⟨.hbm, 138, rfl⟩
abbrev main_call9_v11 : Ref sig .tc := ⟨.hbm, 139, rfl⟩
abbrev main_call9_c_3 : Ref sig .tc := ⟨.hbm, 140, rfl⟩
abbrev main_call9_v12 : Ref sig .tc := ⟨.hbm, 141, rfl⟩
abbrev main_call9_v13 : Ref sig .tc := ⟨.hbm, 142, rfl⟩
abbrev main_call9_c_4 : Ref sig .tc := ⟨.hbm, 143, rfl⟩
abbrev main_call9_v14 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_cst_11 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_c_12 : Ref sig .tc := ⟨.hbm, 152, rfl⟩
abbrev main_v38 : Ref sig .tc := ⟨.hbm, 153, rfl⟩
abbrev main_v39 : Ref sig .tc := ⟨.hbm, 154, rfl⟩
abbrev main_cst_13 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_c_14 : Ref sig .tc := ⟨.hbm, 161, rfl⟩
abbrev main_v45 : Ref sig .tc := ⟨.hbm, 162, rfl⟩
abbrev main_v46 : Ref sig .tc := ⟨.hbm, 163, rfl⟩
abbrev main_v47 : Ref sig .tc := ⟨.hbm, 164, rfl⟩
abbrev main_c_15 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_c_16 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_cst_17 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_cst_18 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_cst_19 : Ref sig .tc := ⟨.hbm, 185, rfl⟩
abbrev main_call11_v0 : Ref sig .tc := ⟨.hbm, 186, rfl⟩
abbrev main_call11_v1 : Ref sig .tc := ⟨.hbm, 187, rfl⟩
abbrev main_v64 : Ref sig .tc := ⟨.hbm, 188, rfl⟩
abbrev main_v65 : Ref sig .tc := ⟨.hbm, 189, rfl⟩
abbrev main_v66 : Ref sig .tc := ⟨.hbm, 190, rfl⟩
abbrev main_cst_20 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_c_21 : Ref sig .tc := ⟨.hbm, 195, rfl⟩
abbrev main_v70 : Ref sig .tc := ⟨.hbm, 196, rfl⟩
abbrev main_v71 : Ref sig .tc := ⟨.hbm, 197, rfl⟩
abbrev main_cst_22 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_c_23 : Ref sig .tc := ⟨.hbm, 204, rfl⟩
abbrev main_v77 : Ref sig .tc := ⟨.hbm, 205, rfl⟩
abbrev main_v78 : Ref sig .tc := ⟨.hbm, 206, rfl⟩
abbrev main_v79 : Ref sig .tc := ⟨.hbm, 207, rfl⟩
abbrev main_c_24 : Ref sig .tc := ⟨.hbm, 208, rfl⟩
abbrev main_v80 : Ref sig .tc := ⟨.hbm, 209, rfl⟩
abbrev main_v81 : Ref sig .tc := ⟨.hbm, 210, rfl⟩
abbrev main_v82 : Ref sig .tc := ⟨.hbm, 211, rfl⟩
abbrev main_v83 : Ref sig .tc := ⟨.hbm, 212, rfl⟩
abbrev main_v84 : Ref sig .tc := ⟨.hbm, 213, rfl⟩
abbrev main_cst_25 : Ref sig .tc := ⟨.hbm, 214, rfl⟩
abbrev main_v85 : Ref sig .tc := ⟨.hbm, 215, rfl⟩
abbrev main_v86 : Ref sig .tc := ⟨.hbm, 216, rfl⟩
abbrev main_v87 : Ref sig .tc := ⟨.hbm, 217, rfl⟩
abbrev main_v88 : Ref sig .tc := ⟨.hbm, 218, rfl⟩
abbrev main_cst_26 : Ref sig .tc := ⟨.hbm, 219, rfl⟩
abbrev main_v89 : Ref sig .tc := ⟨.hbm, 220, rfl⟩
abbrev main_v90 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_cst_27 : Ref sig .tc := ⟨.hbm, 225, rfl⟩
abbrev main_call13_v0 : Ref sig .tc := ⟨.hbm, 226, rfl⟩
abbrev main_call13_v1 : Ref sig .tc := ⟨.hbm, 227, rfl⟩
abbrev main_v94 : Ref sig .tc := ⟨.hbm, 228, rfl⟩
abbrev main_v95 : Ref sig .tc := ⟨.hbm, 229, rfl⟩
abbrev main_v96 : Ref sig .tc := ⟨.hbm, 230, rfl⟩
abbrev main_cst_28 : Ref sig .tc := ⟨.hbm, 231, rfl⟩
abbrev main_v97 : Ref sig .tc := ⟨.hbm, 232, rfl⟩
abbrev main_v98 : Ref sig .tc := ⟨.hbm, 233, rfl⟩
abbrev main_v99 : Ref sig .tc := ⟨.hbm, 234, rfl⟩
abbrev main_v100 : Ref sig .tc := ⟨.hbm, 235, rfl⟩
abbrev main_c_29 : Ref sig .tc := ⟨.hbm, 236, rfl⟩
abbrev main_v101 : Ref sig .tc := ⟨.hbm, 237, rfl⟩
abbrev main_v102 : Ref sig .tc := ⟨.hbm, 238, rfl⟩
abbrev main_c_30 : Ref sig .tc := ⟨.hbm, 239, rfl⟩
abbrev main_v103 : Ref sig .tc := ⟨.hbm, 240, rfl⟩
abbrev main_v104 : Ref sig .tc := ⟨.hbm, 241, rfl⟩
abbrev main_v105 : Ref sig .tc := ⟨.hbm, 242, rfl⟩
abbrev main_v106 : Ref sig .tc := ⟨.hbm, 243, rfl⟩
abbrev main_v107 : Ref sig .tc := ⟨.hbm, 244, rfl⟩
abbrev main_c_31 : Ref sig .tc := ⟨.hbm, 245, rfl⟩
abbrev main_v108 : Ref sig .tc := ⟨.hbm, 246, rfl⟩
abbrev main_v109 : Ref sig .tc := ⟨.hbm, 247, rfl⟩
abbrev main_c_32 : Ref sig .tc := ⟨.hbm, 248, rfl⟩
abbrev main_v110 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_cst_33 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_v119 : Ref sig .tc := ⟨.hbm, 259, rfl⟩
abbrev main_v120 : Ref sig .tc := ⟨.hbm, 260, rfl⟩
abbrev main_v121 : Ref sig .tc := ⟨.hbm, 261, rfl⟩
abbrev main_v122 : Ref sig .tc := ⟨.hbm, 262, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S64 : S_.BroadcastsInDim S64 (![] : Fin 0 → Fin S64.rank)
  bcast_S8192_S1x8192_1 : S8192.BroadcastsInDim S1x8192 (![1] : Fin 1 → Fin S1x8192.rank)
  slices_S32x8192_S32x8191_0_0 : S32x8192.Slices ![0, 0] S32x8191
  slices_S32x8192_S32x8191_0_1 : S32x8192.Slices ![0, 1] S32x8191
  bcast_S_S32x1 : S_.BroadcastsInDim S32x1 (![] : Fin 0 → Fin S32x1.rank)
  concatenates_S32x1_S32x8191_S32x8192_d1 : Shape.Concatenates [S32x1, S32x8191] S32x8192 1
  concatenates_S32x8191_S32x1_S32x8192_d1 : Shape.Concatenates [S32x8191, S32x1] S32x8192 1
  bcast_S1x8192_S32x8192_0_1 : S1x8192.BroadcastsInDim S32x8192 (![0, 1] : Fin 2 → Fin S32x8192.rank)
  bcast_S_S32x8192 : S_.BroadcastsInDim S32x8192 (![] : Fin 0 → Fin S32x8192.rank)
  bcast_S_S_ : S_.BroadcastsInDim S_ (![] : Fin 0 → Fin S_.rank)
  reduceWindows_S32x8192_S32x8192_w1s1p0_0_w8192s1p8191_0 : S32x8192.ReduceWindows (![1, 8192] : Fin 2 → Nat) ![1, 1] ![0, 8191] ![0, 0] S32x8192
  h_S_ : 0 < S_.numel
  bcast_S_S1x8192 : S_.BroadcastsInDim S1x8192 (![] : Fin 0 → Fin S1x8192.rank)
  reduceWindows_S32x8192_S32x8192_w1s1p0_0_w8192s1p0_8191 : S32x8192.ReduceWindows (![1, 8192] : Fin 2 → Nat) ![1, 1] ![0, 0] ![0, 8191] S32x8192
  shapeCasts_S32x8192_S32x8192x1 : S32x8192.ShapeCasts S32x8192x1
  bcast_S_S32x8192x1 : S_.BroadcastsInDim S32x8192x1 (![] : Fin 0 → Fin S32x8192x1.rank)
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x8192_d2 : S32x8192x1.ReducesTo [2] S32x8192
  bcast_S32x8192_S32x8192x1_0_1 : S32x8192.BroadcastsInDim S32x8192x1 (![0, 1] : Fin 2 → Fin S32x8192x1.rank)
  bcast_S32x8192x1_S32x8192x64_0_1_2 : S32x8192x1.BroadcastsInDim S32x8192x64 (![0, 1, 2] : Fin 3 → Fin S32x8192x64.rank)
  scatter_S2820x64_S1_S64_0_0_0_0_wf : ScatterDims.WF S2820x64 S1 S64 [0] [0] [0] 0
  gather_S32x8192_S32x8192x1_S32x8192_n_1_0_0_1_2_11_wf : GatherDims.WF S32x8192 S32x8192x1 S32x8192 [] [1] [0] [1] [0] 2 ![1, 1]
  gather_S2820x64_S32x8192x1_S32x8192x64_2_0_n_n_0_2_164_wf : GatherDims.WF S2820x64 S32x8192x1 S32x8192x64 [2] [0] [] [0] [] 2 ![1, 64]

variable [Facts₀]

def scatter_S2820x64_S1_S64_0_0_0_0 : ScatterDims S2820x64 S1 S64 where
  updateWindowDims := [0]
  insertedWindowDims := [0]
  scatterDimsToOperandDims := [0]
  indexVectorDim := 0
  wf := scatter_S2820x64_S1_S64_0_0_0_0_wf
def gather_S32x8192_S32x8192x1_S32x8192_n_1_0_0_1_2_11 : GatherDims S32x8192 S32x8192x1 S32x8192 where
  offsetDims := []
  collapsedSliceDims := [1]
  operandBatchingDims := [0]
  startIndicesBatchingDims := [0]
  startIndexMap := [1]
  indexVectorDim := 2
  sliceSizes := ![1, 1]
  wf := gather_S32x8192_S32x8192x1_S32x8192_n_1_0_0_1_2_11_wf
def gather_S2820x64_S32x8192x1_S32x8192x64_2_0_n_n_0_2_164 : GatherDims S2820x64 S32x8192x1 S32x8192x64 where
  offsetDims := [2]
  collapsedSliceDims := [0]
  operandBatchingDims := []
  startIndicesBatchingDims := []
  startIndexMap := [0]
  indexVectorDim := 2
  sliceSizes := ![1, 64]
  wf := gather_S2820x64_S32x8192x1_S32x8192x64_2_0_n_n_0_2_164_wf

class Facts : Prop extends Facts₀ where

variable [Facts]
-- ==== Proof.Spec.lean ====
/-
  The mathematics shared by the modules of this certificate, stated over literal shapes and importing no program.

  A phoneme id `i` selects row `i` of an embedding table of 2820 rows whose row 0 is zero; each position blends
  its own row with a neighbour's row, with weights `1 - w` and `w`. One program reads the two rows by indexing;
  the other multiplies the (transposed, zero-padded) table by a "two-hot" column that holds `1 - w` at the id's
  row and `w` at the neighbour's row. Over the reals the matrix product is the blend: that is `twoHot` below.
  The rest are the index facts: how a signed 32-bit word names a row on each side.
-/
import Idealize.ShloMosaic.PureOps.Ideal
import Idealize.ShloMosaic.PureOps.Ideal.Laws
import Idealize.ShloMosaic.Lib.IdealHost
import Idealize.ShloMosaic.Lib.ValueIdx
import Idealize.ShloMosaic.Lib.KernelVsHost
import Idealize.ShloMosaic.Lib.Pipeline.Value

noncomputable section

namespace Cert.Blend

open Idealize.ShloMosaic Idealize.ShloMosaic.ValueIdx

abbrev S_ : Shape := ⟨0, ![]⟩
abbrev S32x8192 : Shape := ⟨2, ![32, 8192]⟩
abbrev S1x262144 : Shape := ⟨2, ![1, 262144]⟩
abbrev S2820x64 : Shape := ⟨2, ![2820, 64]⟩
abbrev S64x2820 : Shape := ⟨2, ![64, 2820]⟩
abbrev S64x2944 : Shape := ⟨2, ![64, 2944]⟩
abbrev S262144x64 : Shape := ⟨2, ![262144, 64]⟩
abbrev S32x8192x64 : Shape := ⟨3, ![32, 8192, 64]⟩

/-! ## Index words -/

/-- The table row an index word reads through a gather: the word as a signed integer, negative values read as 0,
    values past the last row as the last row. -/
def rowOf (x : BitVec 32) : Fin 2820 := ⟨min x.toInt.toNat 2819, by omega⟩

/-- `table[i]` counts a negative `i` from the table's end. -/
def wrapv (x : BitVec 32) : BitVec 32 := Scalar.select (IntOp.cmpi .slt x 0#32) (IntOp.addi x 2820#32) x

/-- An index word brought into `[0, 2819]` (a maximum with 0, then a minimum with 2819). -/
def clipv (x : BitVec 32) : BitVec 32 := IntOp.minsi 2819#32 (IntOp.maxsi 0#32 x)

/-- The word is a row number of the table. -/
def InRange (x : BitVec 32) : Prop := 0 ≤ x.toInt ∧ x.toInt < 2820

/-- The value a take along an axis leaves where its index is out of range: the least 32-bit integer. -/
abbrev fillWord : BitVec 32 := 2147483648#32

theorem inRange_toNat {x : BitVec 32} (h : InRange x) : x.toNat < 2820 ∧ x.toInt = (x.toNat : Int) := by
  obtain ⟨h0, h1⟩ := h
  have hx := x.isLt
  rw [BitVec.toInt_eq_toNat_cond] at h0 h1
  rw [BitVec.toInt_eq_toNat_cond]
  split at h0 <;> split <;> omega

theorem clipv_of_inRange {x : BitVec 32} (h : InRange x) : clipv x = x := by
  obtain ⟨hn, hi⟩ := inRange_toNat h
  unfold clipv IntOp.minsi IntOp.maxsi
  have h1 : (x.slt 0#32) = false := by
    rw [BitVec.slt_eq_decide]; simp only [decide_eq_false_iff_not, not_lt]; rw [hi]; simp
  rw [h1]; simp only [Bool.false_eq_true, if_false]
  have h2 : ((2819#32 : BitVec 32).slt x) = false := by
    rw [BitVec.slt_eq_decide]; simp only [decide_eq_false_iff_not, not_lt]; rw [hi]
    show ((x.toNat : Int)) ≤ (2819#32 : BitVec 32).toInt
    have : (2819#32 : BitVec 32).toInt = 2819 := by decide
    rw [this]; omega
  rw [h2]; simp

theorem wrapv_of_inRange {x : BitVec 32} (h : InRange x) : wrapv x = x := by
  obtain ⟨hn, hi⟩ := inRange_toNat h
  unfold wrapv Scalar.select IntOp.cmpi
  have h1 : (x.slt 0#32) = false := by
    rw [BitVec.slt_eq_decide]; simp only [decide_eq_false_iff_not, not_lt]; rw [hi]; simp
  simp [h1]

theorem rowOf_of_inRange {x : BitVec 32} (h : InRange x) : (rowOf x).val = x.toNat := by
  obtain ⟨hn, hi⟩ := inRange_toNat h
  unfold rowOf; simp only; rw [hi]; simp only [Int.toNat_natCast]; omega

/-- On a word that is a row number, or the fill value, the clip on one side and the wrap-then-clamp on the other name
    the same row. -/
theorem clipv_toNat_eq_row {y : BitVec 32} (h : y = fillWord ∨ InRange y) :
    (clipv y).toNat = (rowOf (wrapv y)).val := by
  rcases h with h | h
  · subst h; decide
  · rw [clipv_of_inRange h, wrapv_of_inRange h, rowOf_of_inRange h]

/-- One-hot comparison: the row counter `v`, as a 32-bit word, equals a word `y` exactly when `v` is `y`'s value. -/
theorem cmpi_eq_ofNat_iff (v : Nat) (hv : v < 2944) (y : BitVec 32) :
    IntOp.cmpi .eq (BitVec.ofNat 32 v) y = 1#1 ↔ v = y.toNat := by
  show BitVec.ofBool (BitVec.ofNat 32 v == y) = 1#1 ↔ _
  constructor
  · intro h
    by_cases e : BitVec.ofNat 32 v = y
    · rw [← e, BitVec.toNat_ofNat]; omega
    · have : (BitVec.ofNat 32 v == y) = false := by simpa using e
      rw [this] at h; exact absurd h (by decide)
  · intro h
    have e : BitVec.ofNat 32 v = y := by
      apply BitVec.eq_of_toNat_eq; rw [BitVec.toNat_ofNat, ← h]; omega
    have : (BitVec.ofNat 32 v == y) = true := by simpa using e
    rw [this]; rfl

/-! ## The kernel's host-side stages, as functions of whole arrays -/

/-- Every id brought into `[0, 2819]`. -/
def clipK (x : IVec S32x8192 32) : IVec S32x8192 32 := fun i => clipv (x i)

theorem clipK_of_inRange {x : IVec S32x8192 32} (h : ∀ i, InRange (x i)) : clipK x = x :=
  funext fun i => clipv_of_inRange (h i)

/-- The table laid out for the matrix unit: transposed to [64, 2820], its rows' ends filled with zeros up to 2944
    columns (a multiple of 128), rounded to bf16 (no change over the extended reals). -/
def padT (T0 : FVec Ideal S2820x64 .f32) : FVec Ideal S64x2944 .bf16 :=
  truncf .bf16 (pad S64x2944 ![0, 0] ![0, 124] ![0, 0] (transpose S64x2820 [1, 0] T0 (by decide))
    (sitofp (F := Ideal) .f32 (constantI S_ 32 0#32)) (by decide) (by decide)) (by decide)

/-- The region's result array [262144, 64] as one function of the four arrays it stages: row `n`, column `d` is the
    product of the table's row `d` (laid out [64, 2944]) with the two-hot column of position `n`. -/
def outArr (IDS NBRF : IVec S1x262144 32) (WF : FVec Ideal S1x262144 .f32) (TT : FVec Ideal S64x2944 .bf16) :
    FVec Ideal S262144x64 .f32 := fun j =>
  ∑ v : Fin 2944, TT (ix2 (j 1) v) *
    ((if IntOp.cmpi .eq (BitVec.ofNat 32 v.val) (IDS (ix2 0 (j 0))) = 1#1 then 1 - WF (ix2 0 (j 0)) else 0)
   + (if IntOp.cmpi .eq (BitVec.ofNat 32 v.val) (NBRF (ix2 0 (j 0))) = 1#1 then WF (ix2 0 (j 0)) else 0))

/-! ## The two-hot product -/

theorem coe_sum {ι : Type} (s : Finset ι) (f : ι → ℝ) : ((∑ v ∈ s, f v : ℝ) : EReal) = ∑ v ∈ s, ((f v : ℝ) : EReal) := by
  classical
  induction s using Finset.induction_on with
  | empty => simp
  | insert a s ha ih => rw [Finset.sum_insert ha, Finset.sum_insert ha, EReal.coe_add, ih]

/-- Over the reals: a row of table entries against a column that is `a` at `i`, plus `b` at `j`, and zero elsewhere
    sums to `a · e i + b · e j`, whether or not `i` and `j` coincide. -/
theorem twoHot_real {n : Nat} (e : Fin n → ℝ) (i j : Fin n) (a b : ℝ) :
    ∑ v : Fin n, e v * ((if v = i then a else 0) + (if v = j then b else 0)) = a * e i + b * e j := by
  simp only [mul_add, Finset.sum_add_distrib, mul_ite, mul_zero, Finset.sum_ite_eq', Finset.mem_univ, if_true]
  ring

/-- The same over the extended reals, for finite entries and finite weights (where distributivity holds). -/
theorem twoHot {n : Nat} (e : Fin n → EReal) (i j : Fin n) (a b : EReal)
    (he : ∀ v, ∃ r : ℝ, e v = r) (ha : ∃ r : ℝ, a = r) (hb : ∃ r : ℝ, b = r) :
    ∑ v : Fin n, e v * ((if v = i then a else 0) + (if v = j then b else 0)) = a * e i + b * e j := by
  choose er her using he
  obtain ⟨ar, rfl⟩ := ha
  obtain ⟨br, rfl⟩ := hb
  have hterm : ∀ v : Fin n, e v * ((if v = i then (ar : EReal) else 0) + (if v = j then (br : EReal) else 0))
      = ((er v * ((if v = i then ar else 0) + (if v = j then br else 0)) : ℝ) : EReal) := by
    intro v
    have c1 : (if v = i then (ar : EReal) else 0) = ((if v = i then ar else 0 : ℝ) : EReal) := by split <;> simp
    have c2 : (if v = j then (br : EReal) else 0) = ((if v = j then br else 0 : ℝ) : EReal) := by split <;> simp
    rw [her v, c1, c2, ← EReal.coe_add, ← EReal.coe_mul]
  rw [Finset.sum_congr rfl (fun v _ => hterm v), ← coe_sum, twoHot_real, her i, her j]
  simp [EReal.coe_mul, EReal.coe_add]

end Cert.Blend

end
-- ==== Proof.RefAt.lean ====
/-
  The reference program read at one element of its result.

  The reference looks two rows of the (row-0-zeroed) embedding table up by indexing and blends them: at batch `b`,
  position `t`, feature `d` its result is `(1 - w) · T[r, d] + w · T[r', d]`, where `w` is the blend weight at `(b, t)`,
  `r` the row named by the id at `(b, t)` and `r'` the row named by the neighbour's id. Both row numbers come from an
  index word the same way: a negative word counts from the table's end (`wrapv`), and the indexed read then takes the
  word as a signed integer and clamps it into the table (`rowOf`).
-/
import proofs.«408073_j19172734009775_3_alg».proof.Proof.Spec
import proofs.«408073_j19172734009775_3_alg».proof.Proof.RefRead
import Idealize.ShloMosaic.PureOps.Dims
import Idealize.ShloMosaic.PureOps.ShapeOps
import Idealize.ShloMosaic.PureOps.Ideal
import Idealize.ShloMosaic.Lib.IdealHost
import Idealize.ShloMosaic.Lib.ValueIdx

noncomputable section

namespace Cert.Blend

open Idealize.ShloMosaic Idealize.ShloMosaic.ValueIdx Cert.ReferenceIdeal Cert.ReferenceIdeal.Read

/-! ## The row read -/

/-- The indexed row read at `(b, t, d)`: the table has two axes, the first collapsed and addressed by the start index,
    the second carried whole as the result's last axis. So the element read is in column `d` of the row whose number
    is the start index `idx[b, t, 0]` taken signed and clamped into `[0, 2819]`. -/
theorem gather_row_apply {α : Type} (x : S2820x64.Idx → α) (idx : IVec S32x8192x1 32)
    (b : Fin 32) (t : Fin 8192) (d : Fin 64) :
    Host.gather gather_S2820x64_S32x8192x1_S32x8192x64_2_0_n_n_0_2_164 x idx (ix3 b t d)
      = x (ix2 (rowOf (idx (ix3 b t 0))) d) := by
  unfold Host.gather
  congr 1
  funext a
  refine Fin.ext ?_
  match a with
  | ⟨0, _⟩ =>
    -- the row axis: no batching axis, no offset on a collapsed axis; what is left is the clamped start index
    show gather_S2820x64_S32x8192x1_S32x8192x64_2_0_n_n_0_2_164.start (ix3 b t d) idx 0
        + gather_S2820x64_S32x8192x1_S32x8192x64_2_0_n_n_0_2_164.batchCoord (ix3 b t d) 0
        + gather_S2820x64_S32x8192x1_S32x8192x64_2_0_n_n_0_2_164.offCoord (ix3 b t d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2820x64_S32x8192x1_S32x8192x64_2_0_n_n_0_2_164.startIndexMap
      from List.mem_singleton.mpr rfl)]
    have hsi : gather_S2820x64_S32x8192x1_S32x8192x64_2_0_n_n_0_2_164.siIdx (ix3 b t d)
        ⟨List.idxOf (0 : Fin 2) gather_S2820x64_S32x8192x1_S32x8192x64_2_0_n_n_0_2_164.startIndexMap,
          List.idxOf_lt_length_iff.2 (List.mem_singleton.mpr rfl)⟩ = ix3 b t 0 := by
      funext c; refine Fin.ext ?_
      match c with
      | ⟨0, _⟩ => rfl
      | ⟨1, _⟩ => rfl
      | ⟨2, _⟩ => rfl
    rw [hsi]
    rfl
  | ⟨1, _⟩ =>
    -- the column axis: not addressed by the start index, not a batching axis; the result's last coordinate is its offset
    show gather_S2820x64_S32x8192x1_S32x8192x64_2_0_n_n_0_2_164.start (ix3 b t d) idx 1
        + gather_S2820x64_S32x8192x1_S32x8192x64_2_0_n_n_0_2_164.batchCoord (ix3 b t d) 1
        + gather_S2820x64_S32x8192x1_S32x8192x64_2_0_n_n_0_2_164.offCoord (ix3 b t d) 1 = d.val
    rw [GatherDims.batchCoord_eq_zero _ _ _ List.not_mem_nil]
    have hs : gather_S2820x64_S32x8192x1_S32x8192x64_2_0_n_n_0_2_164.start (ix3 b t d) idx 1 = 0 := by
      unfold GatherDims.start
      rw [dif_neg (show (1 : Fin 2) ∉ gather_S2820x64_S32x8192x1_S32x8192x64_2_0_n_n_0_2_164.startIndexMap from by decide)]
    have hk : (1 : Fin 2) ∈ gather_S2820x64_S32x8192x1_S32x8192x64_2_0_n_n_0_2_164.sKept := by decide
    rw [hs]
    unfold GatherDims.offCoord
    rw [dif_pos hk]
    simp only [Nat.zero_add, Nat.add_zero]
    rfl

/-! ## Index words and indices along the chain -/

/-- Dropping the unit axis of `(b, t, 0)` leaves `(b, t)`. -/
theorem drop_unit (b : Fin 32) (t : Fin 8192) : idx_main_v106 (ix3 b t 0) = ix2 b t := by
  funext a
  match a with
  | ⟨0, _⟩ => rfl
  | ⟨1, _⟩ => rfl

/-- A value laid along the feature axis is read, at `(b, t, d)`, where the feature coordinate is 0. -/
theorem along_feature (b : Fin 32) (t : Fin 8192) (d : Fin 64) : idx_main_v118 (ix3 b t d) = ix3 b t 0 := by
  funext a
  match a with
  | ⟨0, _⟩ => rfl
  | ⟨1, _⟩ => rfl
  | ⟨2, _⟩ => rfl

/-- The start index the first read sees at `(b, t, 0)`: the id at `(b, t)`, a negative one counted from the table's end. -/
theorem v106_at (x0 : IVec S32x8192 32) (b : Fin 32) (t : Fin 8192) :
    val_main_v106 (F := Ideal) x0 (ix3 b t 0) = wrapv (x0 (ix2 b t)) := by
  rw [val_main_v106_apply, val_main_v105_apply, val_main_v102_apply, val_main_v104_apply, val_main_v101_apply,
    val_main_v103_apply, val_main_c_29_apply, val_main_c_30_apply, drop_unit]
  unfold wrapv
  rfl

/-- The start index the second read sees at `(b, t, 0)`: the neighbour's id at `(b, t)`, wrapped the same way. -/
theorem v113_at (x0 : IVec S32x8192 32) (b : Fin 32) (t : Fin 8192) :
    val_main_v113 (F := Ideal) x0 (ix3 b t 0) = wrapv (val_main_v100 (F := Ideal) x0 (ix2 b t)) := by
  rw [val_main_v113_apply, val_main_v112_apply, val_main_v109_apply, val_main_v111_apply, val_main_v108_apply,
    val_main_v110_apply, val_main_c_31_apply, val_main_c_32_apply]
  have e : idx_main_v113 (ix3 b t 0) = ix2 b t := drop_unit b t
  rw [e]
  unfold wrapv
  rfl

/-- The weight with a unit axis appended reads, at `(b, t, 0)`, the weight at `(b, t)`. -/
theorem v115_at (x0 : IVec S32x8192 32) (b : Fin 32) (t : Fin 8192) :
    val_main_v115 (F := Ideal) x0 (ix3 b t 0) = val_main_v95 (F := Ideal) x0 (ix2 b t) := by
  rw [val_main_v115_apply]
  have e : idx_main_v115 (ix3 b t 0) = ix2 b t := drop_unit b t
  rw [e]

/-- The weight laid along the feature axis reads, at `(b, t, d)`, the weight at `(b, t)`. -/
theorem v120_at (x0 : IVec S32x8192 32) (b : Fin 32) (t : Fin 8192) (d : Fin 64) :
    val_main_v120 (F := Ideal) x0 (ix3 b t d) = val_main_v95 (F := Ideal) x0 (ix2 b t) := by
  rw [val_main_v120_apply]
  have e : idx_main_v120 (ix3 b t d) = ix3 b t 0 := along_feature b t d
  rw [e, v115_at]

/-- One minus the weight, laid along the feature axis, reads at `(b, t, d)` one minus the weight at `(b, t)`: the
    constant's bit pattern is the real number one, and the subtraction is the extended reals'. -/
theorem v118_at (x0 : IVec S32x8192 32) (b : Fin 32) (t : Fin 8192) (d : Fin 64) :
    val_main_v118 (F := Ideal) x0 (ix3 b t d) = 1 - val_main_v95 (F := Ideal) x0 (ix2 b t) := by
  rw [val_main_v118_apply, along_feature, val_main_v117_apply, val_main_v116_apply, val_main_cst_33_apply, v115_at,
    Ideal.subf_def, Ideal.ofBits_def, Ideal.ofBits_one_f32]

/-! ## The result at one element -/

/-- The reference's result at `(b, t, d)` is the blend of two table entries of column `d`: weight `1 - w` on the row the
    id names, weight `w` on the row the neighbour's id names. -/
theorem ref_apply (x0 : IVec S32x8192 32) (x1 : FVec Ideal S2820x64 .f32) (b : Fin 32) (t : Fin 8192) (d : Fin 64) :
    val_main_v122 (F := Ideal) x0 x1 (ix3 b t d)
      = (1 - val_main_v95 (F := Ideal) x0 (ix2 b t)) * val_main_v2 (F := Ideal) x1 (ix2 (rowOf (wrapv (x0 (ix2 b t)))) d)
        + val_main_v95 (F := Ideal) x0 (ix2 b t) * val_main_v2 (F := Ideal) x1 (ix2 (rowOf (wrapv (val_main_v100 (F := Ideal) x0 (ix2 b t)))) d) := by
  rw [val_main_v122_apply, val_main_v119_apply, val_main_v121_apply, Ideal.addf_def, Ideal.mulf_def, Ideal.mulf_def,
    v118_at, v120_at]
  have h107 : val_main_v107 (F := Ideal) x0 x1 (ix3 b t d)
      = val_main_v2 (F := Ideal) x1 (ix2 (rowOf (wrapv (x0 (ix2 b t)))) d) := by
    unfold val_main_v107
    rw [gather_row_apply, v106_at]
  have h114 : val_main_v114 (F := Ideal) x0 x1 (ix3 b t d)
      = val_main_v2 (F := Ideal) x1 (ix2 (rowOf (wrapv (val_main_v100 (F := Ideal) x0 (ix2 b t)))) d) := by
    unfold val_main_v114
    rw [gather_row_apply, v113_at]
  rw [h107, h114]

end Cert.Blend

end
-- ==== Proof.TableFacts.lean ====
/-
  Two facts about the embedding table, each read at one entry.

  The reference zeroes row 0 of the table by a scatter: one scatter index, the constant 0, and a whole row of 64
  updates, each the float zero. A scatter is a left fold over its update elements, each step replacing one entry.
  Here every step writes the same value, so the fold is read off by a simple invariant: an entry some step names
  ends as that value, any other entry is untouched. Update element `j` lands at (0, j), so exactly row 0 is named.

  The kernel's side lays the table out transposed and padded on the right with zeros up to 2944 columns: inside the
  first 2820 columns the entry (d, v) is the table's (v, d); past them it is the padding value, the integer 0
  converted to a float, which is the real 0. The rounding to the narrower format changes nothing over the extended
  reals.
-/
import proofs.«408073_j19172734009775_3_alg».proof.Proof.Spec
import proofs.«408073_j19172734009775_3_alg».proof.Proof.RefRead
import Idealize.ShloMosaic.PureOps.Dims
import Idealize.ShloMosaic.PureOps.ShapeOps
import Idealize.ShloMosaic.PureOps.Ideal
import Idealize.ShloMosaic.PureOps.Ideal.Laws
import Idealize.ShloMosaic.Lib.ValueIdx
import Idealize.ShloMosaic.Lib.KernelVsHost
import Idealize.ShloMosaic.Lib.Pipeline.Value

noncomputable section

namespace Cert.Blend

open Idealize.ShloMosaic Idealize.ShloMosaic.ValueIdx

/-! ## Row 0 of the table set to zero -/

/-- A left fold whose every step writes the one value `z` at the position `g n` its element names: afterwards a
    position holds `z` when some element of the list named it, and its first value when none did. -/
theorem foldl_write_const {ι β α : Type} [DecidableEq ι] (f : (ι → α) → β → (ι → α)) (g : β → ι) (z : α)
    (hf : ∀ r n, f r n = fun k => if k = g n then z else r k) (l : List β) (x : ι → α) (i' : ι) :
    (l.foldl f x) i' = if ∃ n ∈ l, i' = g n then z else x i' := by
  induction l generalizing x with
  | nil => simp
  | cons n l ih =>
    rw [List.foldl_cons, ih, hf]
    by_cases h1 : ∃ m ∈ l, i' = g m
    · rw [if_pos h1, if_pos]
      obtain ⟨m, hm, e⟩ := h1
      exact ⟨m, List.mem_cons_of_mem _ hm, e⟩
    · rw [if_neg h1]
      show (if i' = g n then z else x i') = _
      by_cases h2 : i' = g n
      · rw [if_pos h2, if_pos]
        exact ⟨n, List.mem_cons_self, h2⟩
      · rw [if_neg h2, if_neg]
        rintro ⟨m, hm, e⟩
        rcases List.mem_cons.1 hm with rfl | hm
        · exact h2 e
        · exact h1 ⟨m, hm, e⟩

/-- A scatter that overwrites (its body returns the update), every update landing inside the operand at `g j` and
    every update the same value `z`: the result is `z` at the positions some update index lands at and the operand
    elsewhere. -/
theorem scatter_write_const_apply {s si u : Shape} {w : Nat} {α : Type} (D : ScatterDims s si u) (x : s.Idx → α)
    (idx : IVec si w) (upd : u.Idx → α) (z : α) (g : u.Idx → s.Idx)
    (hg : ∀ j, D.resultIdx? j idx = some (g j)) (hz : ∀ j, upd j = z) (i : s.Idx) :
    Host.scatter D (fun _ b => b) x idx upd i = if ∃ j : u.Idx, i = g j then z else x i := by
  unfold Host.scatter
  rw [foldl_write_const _ (fun n => g (u.rowMajor.symm n)) z (fun r n => by simp only [hg, hz])]
  by_cases h : ∃ j : u.Idx, i = g j
  · rw [if_pos h, if_pos]
    obtain ⟨j, e⟩ := h
    exact ⟨u.rowMajor j, List.mem_finRange _, by rw [Equiv.symm_apply_apply]; exact e⟩
  · rw [if_neg h, if_neg]
    rintro ⟨n, -, e⟩
    exact h ⟨_, e⟩

/-- The one scatter index is the constant 0, so every window starts at 0 on both axes. -/
theorem tbl0_start (j : Cert.ReferenceIdeal.S64.Idx) (a : Fin 2) :
    Cert.ReferenceIdeal.scatter_S2820x64_S1_S64_0_0_0_0.start j (Cert.ReferenceIdeal.Read.val_main_v0 (F := Ideal)) a = 0 := by
  unfold ScatterDims.start
  split
  · rw [Cert.ReferenceIdeal.Read.val_main_v0_apply, Cert.ReferenceIdeal.Read.val_main_c_apply]; rfl
  · rfl

/-- The row axis is an inserted window axis: the window coordinate on it is 0. -/
theorem tbl0_window_row (j : Cert.ReferenceIdeal.S64.Idx) (a : Fin 2) (ha : a.val = 0) :
    Cert.ReferenceIdeal.scatter_S2820x64_S1_S64_0_0_0_0.window j a = 0 := by
  have : a = 0 := Fin.ext ha
  subst this
  unfold ScatterDims.window
  rw [dif_neg (by decide)]

/-- The column axis carries the update's one coordinate. -/
theorem tbl0_window_col (j : Cert.ReferenceIdeal.S64.Idx) (a : Fin 2) (ha : a.val = 1) :
    Cert.ReferenceIdeal.scatter_S2820x64_S1_S64_0_0_0_0.window j a = (j 0).val := by
  have : a = 1 := Fin.ext ha
  subst this
  unfold ScatterDims.window
  rw [dif_pos (by decide)]
  rfl

/-- Update element `j` lands in row 0 at column `j`. -/
theorem tbl0_resultIdx (j : Cert.ReferenceIdeal.S64.Idx) :
    Cert.ReferenceIdeal.scatter_S2820x64_S1_S64_0_0_0_0.resultIdx? j (Cert.ReferenceIdeal.Read.val_main_v0 (F := Ideal))
      = some (ix2 (0 : Fin 2820) (⟨(j 0).val, (j 0).isLt⟩ : Fin 64)) := by
  unfold ScatterDims.resultIdx?
  have hj : (j 0).val < 64 := (j 0).isLt
  rw [dif_pos (fun a => by
    rw [tbl0_start]
    match a with
    | ⟨0, _⟩ => rw [tbl0_window_row j _ rfl]; exact ⟨by simp, by show ((0 : Int) + (0 : Nat)) < (2820 : Nat); omega⟩
    | ⟨1, _⟩ => rw [tbl0_window_col j _ rfl]; exact ⟨by omega, by show ((0 : Int) + ((j 0).val : Nat)) < (64 : Nat); omega⟩)]
  refine congrArg some (funext fun a => Fin.ext ?_)
  match a with
  | ⟨0, h0⟩ =>
    have e : (Cert.ReferenceIdeal.scatter_S2820x64_S1_S64_0_0_0_0.start j (Cert.ReferenceIdeal.Read.val_main_v0 (F := Ideal)) ⟨0, h0⟩
        + ((Cert.ReferenceIdeal.scatter_S2820x64_S1_S64_0_0_0_0.window j ⟨0, h0⟩ : Nat) : Int)).toNat = 0 := by
      rw [tbl0_start, tbl0_window_row j _ rfl]; rfl
    exact e
  | ⟨1, h1⟩ =>
    have e : (Cert.ReferenceIdeal.scatter_S2820x64_S1_S64_0_0_0_0.start j (Cert.ReferenceIdeal.Read.val_main_v0 (F := Ideal)) ⟨1, h1⟩
        + ((Cert.ReferenceIdeal.scatter_S2820x64_S1_S64_0_0_0_0.window j ⟨1, h1⟩ : Nat) : Int)).toNat = (j 0).val := by
      rw [tbl0_start, tbl0_window_col j _ rfl]; omega
    exact e

/-- row 0 of the table is set to zero, the other rows are kept -/
theorem tbl0_apply (x1 : FVec Ideal S2820x64 .f32) (v : Fin 2820) (d : Fin 64) :
    Cert.ReferenceIdeal.Read.val_main_v2 (F := Ideal) x1 (ix2 v d) = if v.val = 0 then 0 else x1 (ix2 v d) := by
  unfold Cert.ReferenceIdeal.Read.val_main_v2
  rw [scatter_write_const_apply _ x1 _ _ (0 : Ideal .f32) (fun j => ix2 (0 : Fin 2820) (⟨(j 0).val, (j 0).isLt⟩ : Fin 64))
    tbl0_resultIdx (fun j => by
      rw [Cert.ReferenceIdeal.Read.val_main_v1_apply, Cert.ReferenceIdeal.Read.val_main_cst_apply]
      exact Ideal.ofBits_zero_f32)]
  by_cases hv : v.val = 0
  · rw [if_pos hv, if_pos]
    have : v = 0 := Fin.ext hv
    subst this
    exact ⟨ix1 d, rfl⟩
  · rw [if_neg hv, if_neg]
    rintro ⟨j, e⟩
    exact hv (congrArg Fin.val (congrFun e ⟨0, by decide⟩))

/-! ## The transposed, zero-padded table -/

/-- the transposed, zero-padded table read at (d, v) -/
theorem padT_apply (T0 : FVec Ideal S2820x64 .f32) (d : Fin 64) (v : Fin 2944) :
    padT T0 (ix2 d v) = if h : v.val < 2820 then T0 (ix2 ⟨v.val, h⟩ d) else 0 := by
  unfold padT
  rw [truncf_apply]
  by_cases h : v.val < 2820
  · rw [dif_pos h]
    -- inside the unpadded block: no low padding and no interior padding, so the coordinates are kept
    rw [pad_apply_of_inside _ _ _ _ _ _ _ (ix2 d v) (ix2 d (⟨v.val, h⟩ : Fin 2820)) (fun a => by
      match a with
      | ⟨0, _⟩ => show d.val = 0 + d.val * (0 + 1); omega
      | ⟨1, _⟩ => show v.val = 0 + v.val * (0 + 1); omega)]
    -- the transpose swaps the two coordinates
    exact transpose_apply _ T0 _ (ix2 d (⟨v.val, h⟩ : Fin 2820)) (ix2 (⟨v.val, h⟩ : Fin 2820) d) (fun b => by
      match b with
      | ⟨0, _⟩ => rfl
      | ⟨1, _⟩ => rfl)
  · rw [dif_neg h]
    -- past column 2820 the second axis is in the high padding, which holds the integer 0 converted: the real 0
    rw [pad_apply_of_not_inside _ _ _ _ _ _ _ (ix2 d v) (⟨1, by decide⟩ : Fin 2) (by
      show ¬(0 ≤ v.val ∧ (v.val - 0) % (0 + 1) = 0 ∧ (v.val - 0) / (0 + 1) < 2820)
      omega)]
    show (((0#32 : BitVec 32).toInt : ℝ) : EReal) = 0
    simp

end Cert.Blend

end
-- ==== Proof.PreFacts.lean ====
/-
  What the precondition on the two inputs says, entry by entry.

  The precondition is one bit: the conjunction of two "for all entries" statements, each a reduction by "and" over both
  axes of a rectangle of bits, started from the bit 1. The first rectangle holds, at each table entry x, the bit of
  |x| < +inf; the second holds, at each id w, the conjunction of the bits of 0 <= w and w < 2820, both read signed. When the
  one bit is 1, each reduction is 1, so every bit of each rectangle is 1: every table entry is a real number (neither
  infinity, and not the bottom element that stands for a non-number), and every id is a row number of the table.
-/
import proofs.«408073_j19172734009775_3_alg».proof.Proof.Spec
import proofs.«408073_j19172734009775_3_alg».proof.Pre_finite_inputs
import proofs.«408073_j19172734009775_3_alg».proof.Proof.Gen.Pre_finite_inputs
import Idealize.ShloMosaic.Lib.ReduceAll
import Idealize.ShloMosaic.Lib.StableHlo.Predicate

noncomputable section

namespace Cert.Blend

open Idealize.ShloMosaic Idealize.ShloMosaic.ValueIdx

/-- A shape of rank 0 has exactly one index: there is no coordinate to differ in. -/
instance subsingleton_scalarIdx : Subsingleton Cert.Pre_finite_inputs.S_.Idx :=
  ⟨fun a b => funext fun d => d.elim0⟩

/-- An extended real whose absolute value max(x, -x) lies strictly below +inf is a real number: at either infinity
    the maximum is +inf itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- A word that tests at least 0 and below 2820, signed, is a row number. -/
theorem inRange_of_bits (w : BitVec 32)
    (h : IntOp.andi (IntOp.cmpi .sge w 0#32) (IntOp.cmpi .slt w 2820#32) = 1#1) : InRange w := by
  obtain ⟨h0, h1⟩ := IntOp.andi_eq_one.1 h
  rw [IntOp.cmpi_sge] at h0
  rw [IntOp.cmpi_slt] at h1
  have e0 : (0#32 : BitVec 32).toInt = 0 := by decide
  have e1 : (2820#32 : BitVec 32).toInt = 2820 := by decide
  rw [e0] at h0
  rw [e1] at h1
  exact ⟨h0, h1⟩

/-- The precondition's one bit, split: the bit at every table entry and the bit at every id. -/
theorem pre_bits (ids : IVec S32x8192 32) (tbl : FVec Ideal S2820x64 .f32)
    (h : Cert.Pre_finite_inputs.fn (F := Ideal) ids tbl = fun _ => 1#1) :
    (∀ i, Ideal.cmp .olt (max (tbl i) (-(tbl i))) (Ideal.ofBits .f32 0x7F800000#32) = 1#1)
      ∧ (∀ i, IntOp.andi (IntOp.cmpi .sge (ids i) 0#32) (IntOp.cmpi .slt (ids i) 2820#32) = 1#1) := by
  have e := congrFun h ValueIdx.ix0
  dsimp only [Cert.Pre_finite_inputs.fn] at e
  obtain ⟨ht, hi⟩ := IntOp.andi_eq_one.1 e
  refine ⟨fun i => ?_, fun i => ?_⟩
  · exact Host.reduce_andi_all _ _ _ _ _ ht i
  · exact Host.reduce_andi_all _ _ _ _ _ hi i

theorem table_real (ids : IVec S32x8192 32) (tbl : FVec Ideal S2820x64 .f32)
    (h : Cert.Pre_finite_inputs.fn (F := Ideal) ids tbl = fun _ => 1#1) : ∀ i, ∃ r : ℝ, tbl i = (r : EReal) :=
  fun i => real_of_abs_lt_top (tbl i) ((pre_bits ids tbl h).1 i)

theorem ids_inRange (ids : IVec S32x8192 32) (tbl : FVec Ideal S2820x64 .f32)
    (h : Cert.Pre_finite_inputs.fn (F := Ideal) ids tbl = fun _ => 1#1) : ∀ i, InRange (ids i) :=
  fun i => inRange_of_bits (ids i) ((pre_bits ids tbl h).2 i)

end Cert.Blend

end
-- ==== Proof.GlueFacts.lean ====
/-
  Two facts about the reference's blend-weight computation, for every array of ids.

  The blend weight at a position is the larger of two candidate weights. Each candidate is either zero or the smaller
  of one half and a quotient: one half times an integer (as a real), divided by an integer that is at least one (as a
  real). Every step keeps a finite real finite, and the divisor is never zero, so the weight is a finite real.

  The neighbour id at a position is chosen among three words: two results of a take along an axis and the position's
  own id. A take along an axis yields either the operand at some index or the fill value of an out-of-range index.
-/
import proofs.«408073_j19172734009775_3_alg».proof.Proof.Spec
import proofs.«408073_j19172734009775_3_alg».proof.Proof.RefRead
import Idealize.ShloMosaic.PureOps.Ideal
import Idealize.ShloMosaic.PureOps.Ideal.Laws
import Idealize.ShloMosaic.Lib.IdealHost
import Idealize.ShloMosaic.PureOps.ShapeOps

noncomputable section

namespace Cert.Blend

open Idealize.ShloMosaic Idealize.ShloMosaic.ValueIdx Cert.ReferenceIdeal Cert.ReferenceIdeal.Read

/-! ## Finite reals among the extended reals -/

/-- The extended real is a finite real. -/
def IsReal (x : EReal) : Prop := ∃ r : ℝ, x = (r : EReal)

theorem IsReal.coe (r : ℝ) : IsReal (r : EReal) := ⟨r, rfl⟩

theorem IsReal.zero : IsReal (0 : EReal) := ⟨0, by simp⟩

/-- A product of finite reals is a finite real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two finite reals is a finite real. -/
theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max (a := a) (b := b)).symm⟩

/-- The smaller of two finite reals is a finite real. -/
theorem IsReal.min {x y : EReal} (hx : IsReal x) (hy : IsReal y) : IsReal (min x y) := by
  obtain ⟨a, rfl⟩ := hx
  obtain ⟨b, rfl⟩ := hy
  exact ⟨Min.min a b, (EReal.coe_strictMono.monotone.map_min (a := a) (b := b)).symm⟩

/-- A choice between two finite reals is a finite real. -/
theorem IsReal.select (c : BitVec 1) {x y : EReal} (hx : IsReal x) (hy : IsReal y) :
    IsReal (Scalar.select c x y) := by
  unfold Scalar.select
  split
  · exact hx
  · exact hy

/-- A finite real divided by a nonzero real is a finite real: the quotient is the product with the reciprocal. -/
theorem IsReal.div_coe {x : EReal} (hx : IsReal x) {y : ℝ} (hy : y ≠ 0) : IsReal (Ideal.div x (y : EReal)) := by
  rw [Ideal.div_coe hy]
  exact hx.mul (IsReal.coe _)

/-! ## The constants and the divisor -/

/-- The f32 pattern `0x3F000000` is the real one half. -/
theorem ofBits_half_f32 : Ideal.ofBits .f32 0x3F000000#32 = (((1 : ℝ) / 2 : ℝ) : EReal) := by
  simp [Ideal.ofBits, Ideal.ieee, -EReal.coe_mul]; norm_num

theorem half_real : IsReal (FloatOps.ofBits (F := Ideal) .f32 0x3F000000#32) := by
  rw [Ideal.ofBits_def, ofBits_half_f32]
  exact IsReal.coe _

theorem zero_real : IsReal (FloatOps.ofBits (F := Ideal) .f32 0x00000000#32) := by
  rw [Ideal.ofBits_def, Ideal.ofBits_zero_f32]
  exact IsReal.zero

/-- The signed maximum of one and any word is at least one as an integer. -/
theorem one_le_toInt_maxsi_one (y : BitVec 32) : 1 ≤ (IntOp.maxsi 1#32 y).toInt := by
  unfold IntOp.maxsi
  by_cases h : y.slt 1#32 = true
  · rw [if_pos h]; decide
  · rw [if_neg h]
    rw [BitVec.slt_eq_decide] at h
    simp only [decide_eq_true_eq, not_lt] at h
    have h1 : (1#32 : BitVec 32).toInt = 1 := by decide
    omega

/-- So, as a real, it is not zero. -/
theorem toInt_maxsi_one_ne_zero (y : BitVec 32) : (((IntOp.maxsi 1#32 y).toInt : ℝ)) ≠ 0 := by
  have h := one_le_toInt_maxsi_one y
  have h' : (1 : ℝ) ≤ ((IntOp.maxsi 1#32 y).toInt : ℝ) := by exact_mod_cast h
  intro e
  rw [e] at h'
  linarith

/-- An integer word converted to a float is a finite real. -/
theorem sitofp_real (b : BitVec 32) : IsReal (FloatOps.sitofp (F := Ideal) .f32 b) := ⟨(b.toInt : ℝ), rfl⟩

/-- One candidate weight: zero, or the smaller of one half and (one half times an integer) over an integer at least one. -/
theorem candidate_real (c : BitVec 1) (a b : BitVec 32) (h z : EReal) (hh : IsReal h) (hz : IsReal z) :
    IsReal (Scalar.select c
      (FloatOps.minimumf (F := Ideal) (φ := .f32)
        (FloatOps.hostDivf (F := Ideal) (φ := .f32) (FloatOps.mulf (F := Ideal) (φ := .f32) h (FloatOps.sitofp (F := Ideal) .f32 a))
          (FloatOps.sitofp (F := Ideal) .f32 (IntOp.maxsi 1#32 b))) h) z) := by
  apply IsReal.select _ _ hz
  show IsReal (Min.min (Ideal.div (h * _) (((IntOp.maxsi 1#32 b).toInt : ℝ) : EReal)) h)
  apply IsReal.min _ hh
  apply IsReal.div_coe _ (toInt_maxsi_one_ne_zero b)
  exact hh.mul (sitofp_real a)

/-! ## The blend weight -/

theorem v94_real (x0 : IVec S32x8192 32) (i : S32x8192.Idx) : IsReal (val_main_v94 (F := Ideal) x0 i) := by
  rw [val_main_v94_apply, val_main_v90_apply, val_main_v88_apply, val_main_v86_apply, val_main_v87_apply,
    val_main_v84_apply, val_main_v78_apply, val_main_v77_apply, val_main_c_23_apply,
    val_main_v85_apply, val_main_cst_25_apply, val_main_v89_apply, val_main_cst_26_apply,
    val_main_call13_v1_apply, val_main_call13_v0_apply, val_main_cst_27_apply]
  exact candidate_real _ _ _ _ _ half_real zero_real

theorem v64_real (x0 : IVec S32x8192 32) (i : S32x8192.Idx) : IsReal (val_main_v64 (F := Ideal) x0 i) := by
  rw [val_main_v64_apply, val_main_v60_apply, val_main_v58_apply, val_main_v56_apply, val_main_v57_apply,
    val_main_v54_apply, val_main_v46_apply, val_main_v45_apply, val_main_c_14_apply,
    val_main_v55_apply, val_main_cst_17_apply, val_main_v59_apply, val_main_cst_18_apply,
    val_main_call11_v1_apply, val_main_call11_v0_apply, val_main_cst_19_apply]
  exact candidate_real _ _ _ _ _ half_real zero_real

/-- The blend weight is a finite real at every position. -/
theorem w_real (x0 : IVec S32x8192 32) (i : S32x8192.Idx) :
    ∃ r : ℝ, val_main_v95 (F := Ideal) x0 i = (r : EReal) := by
  rw [val_main_v95_apply]
  exact IsReal.max (v94_real x0 i) (v64_real x0 i)

/-! ## The neighbour id -/

/-- A take along an axis: the operand at some index where the mask holds, the fill value elsewhere. -/
theorem v29_cases (x0 : IVec S32x8192 32) (i : S32x8192.Idx) :
    val_main_v29 (F := Ideal) x0 i = fillWord ∨ ∃ j, val_main_v29 (F := Ideal) x0 i = x0 j := by
  rw [val_main_v29_apply]
  unfold Scalar.select
  split
  · right
    unfold val_main_call8_v13 Host.gather
    exact ⟨_, rfl⟩
  · left
    rw [val_main_call8_v14_apply, val_main_call8_c_4_apply]

theorem v32_cases (x0 : IVec S32x8192 32) (i : S32x8192.Idx) :
    val_main_v32 (F := Ideal) x0 i = fillWord ∨ ∃ j, val_main_v32 (F := Ideal) x0 i = x0 j := by
  rw [val_main_v32_apply]
  unfold Scalar.select
  split
  · right
    unfold val_main_call9_v13 Host.gather
    exact ⟨_, rfl⟩
  · left
    rw [val_main_call9_v14_apply, val_main_call9_c_4_apply]

/-- The neighbour id is one of the ids, or the fill value of an out-of-range take. -/
theorem nbr_cases (x0 : IVec S32x8192 32) (i : S32x8192.Idx) :
    val_main_v100 (F := Ideal) x0 i = fillWord ∨ ∃ j, val_main_v100 (F := Ideal) x0 i = x0 j := by
  rw [val_main_v100_apply]
  unfold Scalar.select
  split
  · exact v32_cases x0 i
  · rw [val_main_v99_apply]
    unfold Scalar.select
    split
    · exact v29_cases x0 i
    · exact Or.inr ⟨i, rfl⟩

end Cert.Blend

end
-- ==== Proof.Bridge.lean ====
/-
  The two programs agree at every position (b, t) and feature d, over the extended reals.

  One side: the table's row d, laid out over 2944 columns (2820 rows of the table, row 0 zeroed, then zeros),
  against the position's two-hot column: `1 - w` at the row the id names, `w` at the row the clipped neighbour id
  names. Other side: `(1 - w) · table[id] + w · table[neighbour]`, the gather reading a row number signed, a
  negative one from the table's end, and clamped. Under the precondition every id is a row number, so its clip
  and its wrap do nothing; a neighbour id is an id or the fill value of a take, and for both the clip and the
  wrap-then-clamp name one row; the weight and the table's entries are finite reals, so the sum over the columns
  is the two products (`twoHot`).
-/
import proofs.«408073_j19172734009775_3_alg».proof.Proof.Spec
import proofs.«408073_j19172734009775_3_alg».proof.Proof.RefRead
import proofs.«408073_j19172734009775_3_alg».proof.Proof.RefAt
import proofs.«408073_j19172734009775_3_alg».proof.Proof.TableFacts
import proofs.«408073_j19172734009775_3_alg».proof.Proof.PreFacts
import proofs.«408073_j19172734009775_3_alg».proof.Proof.GlueFacts

set_option maxRecDepth 16384

noncomputable section

namespace Cert.Blend

open Idealize.ShloMosaic Idealize.ShloMosaic.ValueIdx Cert.ReferenceIdeal Cert.ReferenceIdeal.Read

/-- Reading a [32, 8192] array laid out as one row of 262144: entry (0, b · 8192 + t) is entry (b, t). -/
theorem flat_apply {α : Type} (X : S32x8192.Idx → α) (b : Fin 32) (t : Fin 8192) (h : S32x8192.ShapeCasts S1x262144)
    (hn : b.val * 8192 + t.val < 262144) :
    shapeCast S1x262144 X h (ix2 (0 : Fin 1) ⟨b.val * 8192 + t.val, hn⟩) = X (ix2 b t) := by
  refine shapeCast_apply X h _ _ ?_
  rw [Shape.rowMajor_val_two, Shape.rowMajor_val_two]
  show b.val * 8192 + t.val = 0 * 262144 + (b.val * 8192 + t.val)
  omega

/-- Every entry of the laid-out table is a finite real: a table entry, or a zero (row 0, or the padding). -/
theorem padT_real (A1 : FVec Ideal S2820x64 .f32) (hT : ∀ i, ∃ r : ℝ, A1 i = (r : EReal)) (d : Fin 64) (v : Fin 2944) :
    ∃ r : ℝ, padT (val_main_v2 (F := Ideal) A1) (ix2 d v) = (r : EReal) := by
  rw [padT_apply]
  split
  · rw [tbl0_apply]
    split
    · exact ⟨0, rfl⟩
    · exact hT _
  · exact ⟨0, rfl⟩

/-- At position (b, t) and feature d: the table's row d against the two-hot column of the position is the blend of the
    id's row and the neighbour's row. The ids are row numbers (the precondition), so the clip keeps them; a neighbour id
    is an id or the fill value, and on both the clip names the row the gather reads; the weight is a finite real and
    so are the table's entries, so the product distributes. -/
theorem bridge_at (A0 : IVec S32x8192 32) (A1 : FVec Ideal S2820x64 .f32)
    (hpre : Cert.Pre_finite_inputs.fn (F := Ideal) A0 A1 = fun _ => 1#1)
    (b : Fin 32) (t : Fin 8192) (d : Fin 64) (hn : b.val * 8192 + t.val < 262144) :
    outArr (shapeCast S1x262144 (clipK A0) (by decide))
           (shapeCast S1x262144 (clipK (val_main_v100 (F := Ideal) (clipK A0))) (by decide))
           (shapeCast S1x262144 (val_main_v95 (F := Ideal) (clipK A0)) (by decide))
           (padT (val_main_v2 (F := Ideal) A1)) (ix2 ⟨b.val * 8192 + t.val, hn⟩ d)
      = val_main_v122 (F := Ideal) A0 A1 (ix3 b t d) := by
  have hr := ids_inRange A0 A1 hpre
  have hT := table_real A0 A1 hpre
  rw [clipK_of_inRange hr, ref_apply]
  unfold outArr
  simp only [flat_apply]
  show ∑ x : Fin 2944, padT (val_main_v2 (F := Ideal) A1) (ix2 d x) *
      ((if IntOp.cmpi .eq (BitVec.ofNat 32 x.val) (A0 (ix2 b t)) = 1#1 then 1 - val_main_v95 (F := Ideal) A0 (ix2 b t) else 0)
       + (if IntOp.cmpi .eq (BitVec.ofNat 32 x.val) (clipv (val_main_v100 (F := Ideal) A0 (ix2 b t))) = 1#1
            then val_main_v95 (F := Ideal) A0 (ix2 b t) else 0)) = _
  generalize hy : A0 (ix2 b t) = y
  generalize hz : val_main_v100 (F := Ideal) A0 (ix2 b t) = z
  obtain ⟨wr, hw⟩ := w_real A0 (ix2 b t)
  rw [hw]
  have hyr : InRange y := hy ▸ hr _
  have hzc : z = fillWord ∨ InRange z := by
    rcases nbr_cases A0 (ix2 b t) with h | ⟨j, h⟩
    · exact Or.inl (hz ▸ h)
    · exact Or.inr (by rw [← hz, h]; exact hr j)
  have hyn := (inRange_toNat hyr).1
  have hzrow := clipv_toNat_eq_row hzc
  have hzn : (clipv z).toNat < 2820 := by rw [hzrow]; exact (rowOf (wrapv z)).isLt
  have c1 : ∀ x : Fin 2944, (IntOp.cmpi .eq (BitVec.ofNat 32 x.val) y = 1#1) ↔ x = (⟨y.toNat, by omega⟩ : Fin 2944) :=
    fun x => (cmpi_eq_ofNat_iff x.val x.isLt y).trans (by rw [Fin.ext_iff])
  have c2 : ∀ x : Fin 2944, (IntOp.cmpi .eq (BitVec.ofNat 32 x.val) (clipv z) = 1#1) ↔ x = (⟨(clipv z).toNat, by omega⟩ : Fin 2944) :=
    fun x => (cmpi_eq_ofNat_iff x.val x.isLt (clipv z)).trans (by rw [Fin.ext_iff])
  simp only [c1, c2]
  have h1w : (1 : EReal) - (wr : EReal) = ((1 - wr : ℝ) : EReal) := by rw [EReal.coe_sub, EReal.coe_one]
  rw [h1w]
  rw [twoHot (fun x : Fin 2944 => padT (val_main_v2 (F := Ideal) A1) (ix2 d x)) _ _ _ _ (padT_real A1 hT d) ⟨_, rfl⟩ ⟨_, rfl⟩]
  rw [padT_apply, padT_apply, dif_pos (show y.toNat < 2820 from hyn), dif_pos hzn]
  have e1 : (⟨y.toNat, hyn⟩ : Fin 2820) = rowOf (wrapv y) := by
    apply Fin.ext; rw [wrapv_of_inRange hyr, rowOf_of_inRange hyr]
  have e2 : (⟨(clipv z).toNat, hzn⟩ : Fin 2820) = rowOf (wrapv z) := Fin.ext hzrow
  rw [e1, e2]

end Cert.Blend

end
-- ==== Proof.HostPrefix.lean ====
/-
  What four arrays hold when the kernel's one pallas region is entered, that is, after the host statements of the
  kernel program's @main that come before it.

  The host part first brings every id into `[0, 2819]` (a maximum with 0, then a minimum with 2819), and from the
  clipped ids computes the blend weight and the neighbour id by the very operations the reference applies to the raw
  ids; it clips the neighbour id the same way, writes zeros over row 0 of the table, transposes it, fills each row's
  end with zeros up to 2944 columns and changes the format to bf16; the three per-position arrays are finally laid out
  as one row of 262144 entries. So, with `A0` the ids and `A1` the table as launched:

  * the ids' window is the clipped ids, as one row;
  * the neighbours' window is the clip of the reference's neighbour stage at the clipped ids, as one row;
  * the weights' window is the reference's weight stage at the clipped ids, as one row;
  * the table's window is the padded transpose of the reference's table stage (row 0 zeroed).

  Each equation is first shown over any float values, where both sides are the same composition of the same
  operations — a called function's operations read at the caller's arrays, a buffer's contents read at its value's
  own type — and then read at the extended reals.
-/
import proofs.«408073_j19172734009775_3_alg».proof.Proof.Spec
import proofs.«408073_j19172734009775_3_alg».proof.Proof.RefRead
import proofs.«408073_j19172734009775_3_alg».proof.Proof.Gen.KernelIdeal.Frame
import Idealize.ShloMosaic.Lib.StableHlo.Run

noncomputable section

namespace Cert.Blend

open Idealize.ShloMosaic Idealize.SL.Sem Cert.KernelIdeal Cert.KernelIdeal.Gen

/-! ## Over any float values -/

section AnyFloat

variable {F : FTy → Type} [FloatOps F]
variable (m : (ℓ : Loc nD τ sig) → Buf (Elt F) ℓ) (c : Dev nD)

/-- The table laid out for the matrix unit, over any float values: transposed to [64, 2820], each row's end filled
    with zeros up to 2944 columns, the format changed to bf16. -/
def padTAny (T0 : FVec F S2820x64 .f32) : FVec F S64x2944 .bf16 :=
  truncf .bf16 (pad S64x2944 ![0, 0] ![0, 124] ![0, 0] (transpose S64x2820 [1, 0] T0 (by decide))
    (sitofp (F := F) .f32 (constantI S_ 32 0#32)) (by decide) (by decide)) (by decide)

/-- At the extended reals it is `padT`. -/
theorem padT_eq_padTAny (T0 : FVec Ideal S2820x64 .f32) : padT T0 = padTAny (F := Ideal) T0 := rfl

set_option maxRecDepth 100000 in
set_option maxHeartbeats 20000000 in
/-- The ids' window: the ids, each brought into `[0, 2819]`, as one row. -/
theorem V_ids_any : Gen.V (F := F) m c main_v106
    = shapeCast S1x262144 (clipK (m ((c.tc : Thread nD τ).loc main_arg0))) (by decide) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, List.flatten_cons, List.flatten_nil, List.append_nil, List.cons_append, List.nil_append]
  simp only [StableHlo.TRef.nullary, StableHlo.TRef.unary, StableHlo.TRef.binary, StableHlo.TRef.ternary, StableHlo.TRef.quaternary, StableHlo.TRef.reshape, StableHlo.TRef.toBuf, StableHlo.TRef.ofBuf, cast_eq]
  after_results_simp
  rfl

set_option maxRecDepth 100000 in
set_option maxHeartbeats 20000000 in
/-- The table's window: row 0 of the table zeroed (the reference's own stage), then transposed, padded, changed to bf16. -/
theorem V_tbl_any : Gen.V (F := F) m c main_v105
    = padTAny (Cert.ReferenceIdeal.Read.val_main_v2 (F := F) (m ((c.tc : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, List.flatten_cons, List.flatten_nil, List.append_nil, List.cons_append, List.nil_append]
  simp only [StableHlo.TRef.nullary, StableHlo.TRef.unary, StableHlo.TRef.binary, StableHlo.TRef.ternary, StableHlo.TRef.quaternary, StableHlo.TRef.reshape, StableHlo.TRef.toBuf, StableHlo.TRef.ofBuf, cast_eq]
  after_results_simp
  rfl

set_option maxRecDepth 100000 in
set_option maxHeartbeats 200000000 in
/-- The weights' window: the reference's blend-weight stage, computed from the clipped ids, as one row. -/
theorem V_w_any : Gen.V (F := F) m c main_v108
    = shapeCast S1x262144 (Cert.ReferenceIdeal.Read.val_main_v95 (F := F) (clipK (m ((c.tc : Thread nD τ).loc main_arg0)))) (by decide) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, List.flatten_cons, List.flatten_nil, List.append_nil, List.cons_append, List.nil_append]
  simp only [StableHlo.TRef.nullary, StableHlo.TRef.unary, StableHlo.TRef.binary, StableHlo.TRef.ternary, StableHlo.TRef.quaternary, StableHlo.TRef.reshape, StableHlo.TRef.toBuf, StableHlo.TRef.ofBuf, cast_eq]
  after_results_simp
  rfl

set_option maxRecDepth 100000 in
set_option maxHeartbeats 200000000 in
/-- The neighbours' window: the reference's neighbour stage, computed from the clipped ids, clipped again, as one row. -/
theorem V_nbr_any : Gen.V (F := F) m c main_v107
    = shapeCast S1x262144 (clipK (Cert.ReferenceIdeal.Read.val_main_v100 (F := F) (clipK (m ((c.tc : Thread nD τ).loc main_arg0))))) (by decide) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, List.flatten_cons, List.flatten_nil, List.append_nil, List.cons_append, List.nil_append]
  simp only [StableHlo.TRef.nullary, StableHlo.TRef.unary, StableHlo.TRef.binary, StableHlo.TRef.ternary, StableHlo.TRef.quaternary, StableHlo.TRef.reshape, StableHlo.TRef.toBuf, StableHlo.TRef.ofBuf, cast_eq]
  after_results_simp
  rfl

end AnyFloat

/-! ## At the extended reals -/

section AtIdeal

variable (m : (ℓ : Loc nD τ sig) → Buf (Elt Ideal) ℓ) (c : Dev nD)

theorem V_ids : Gen.V (F := Ideal) m c main_v106
    = shapeCast S1x262144 (clipK (m ((c.tc : Thread nD τ).loc main_arg0))) (by decide) :=
  V_ids_any m c

theorem V_nbr : Gen.V (F := Ideal) m c main_v107
    = shapeCast S1x262144 (clipK (Cert.ReferenceIdeal.Read.val_main_v100 (F := Ideal) (clipK (m ((c.tc : Thread nD τ).loc main_arg0))))) (by decide) :=
  V_nbr_any m c

theorem V_w : Gen.V (F := Ideal) m c main_v108
    = shapeCast S1x262144 (Cert.ReferenceIdeal.Read.val_main_v95 (F := Ideal) (clipK (m ((c.tc : Thread nD τ).loc main_arg0)))) (by decide) :=
  V_w_any m c

theorem V_tbl : Gen.V (F := Ideal) m c main_v105
    = padT (Cert.ReferenceIdeal.Read.val_main_v2 (F := Ideal) (m ((c.tc : Thread nD τ).loc main_arg1))) := by
  rw [padT_eq_padTAny]; exact V_tbl_any m c

end AtIdeal

end Cert.Blend

end
-- ==== Proof.KBlock.lean ====
/-
  One block of the result, entry by entry, over the extended reals.

  The body forms a matrix `M` of 2944 rows and 1024 columns: entry `(v, r)` holds `1 - w r` when the row counter `v`
  equals the id at column `r`, plus `w r` when `v` equals the neighbour's id at column `r`, and zero otherwise. It then
  multiplies the [64, 2944] table block by `M`, starting from zero, and transposes the [64, 1024] product. So entry
  `(r, d)` of the block is the sum over `v` of `table (d, v) * M (v, r)`. Rounding the weights to a shorter format
  changes nothing over the extended reals.
-/
import proofs.«408073_j19172734009775_3_alg».proof.Proof.Spec
import proofs.«408073_j19172734009775_3_alg».proof.Proof.Gen.KernelIdeal.Frame
import Idealize.ShloMosaic.PureOps.Ideal.Laws
import Idealize.ShloMosaic.PureOps.Dims
import Idealize.ShloMosaic.Lib.IdealHost
import Idealize.ShloMosaic.Lib.ValueIdx
import Idealize.ShloMosaic.Lib.ValueLayout
import Idealize.ShloMosaic.Lib.Pipeline.Value

noncomputable section

namespace Cert.Blend

open Idealize.ShloMosaic Idealize.ShloMosaic.ValueIdx Cert.KernelIdeal Cert.KernelIdeal.Gen

/-- The offsets `(0, 0)` are the zero function on the two axes. -/
theorem zeroOffsets : (![0, 0] : Fin 2 → Nat) = fun _ => 0 := funext fun a => by fin_cases a <;> rfl

/-! ## The product's operand indices

For the product of a [64, 2944] matrix with a [2944, 1024] matrix, at result entry `i = (d, r)` and summation
position `q`: the left operand is read at `(d, q)` and the right operand at `(q, r)`. One statement per axis. -/

/-- The left operand's row is the result's row. -/
theorem lhs_row (i : S64x1024.Idx) (q : dot_S64x2944_S2944x1024_S64x1024_1_0_0_1_n_n.contr.Idx) :
    (dot_S64x2944_S2944x1024_S64x1024_1_0_0_1_n_n.lhsIdx i q 0).val = (i 0).val := by
  unfold DotDims.lhsIdx
  rw [dif_neg (show ¬(0 : Fin Cert.KernelIdeal.S64x2944.rank) ∈ dot_S64x2944_S2944x1024_S64x1024_1_0_0_1_n_n.lhsBatch by decide),
    dif_pos (show (0 : Fin Cert.KernelIdeal.S64x2944.rank) ∈ dot_S64x2944_S2944x1024_S64x1024_1_0_0_1_n_n.lhsNonContracting by decide)]
  rfl

/-- The left operand's column is the summation position. -/
theorem lhs_col (i : S64x1024.Idx) (q : dot_S64x2944_S2944x1024_S64x1024_1_0_0_1_n_n.contr.Idx) :
    (dot_S64x2944_S2944x1024_S64x1024_1_0_0_1_n_n.lhsIdx i q 1).val = (q ⟨0, by decide⟩).val :=
  dot_S64x2944_S2944x1024_S64x1024_1_0_0_1_n_n.lhsIdx_val_of_single rfl i q

/-- The right operand's row is the summation position. -/
theorem rhs_row (i : S64x1024.Idx) (q : dot_S64x2944_S2944x1024_S64x1024_1_0_0_1_n_n.contr.Idx) :
    (dot_S64x2944_S2944x1024_S64x1024_1_0_0_1_n_n.rhsIdx i q 0).val = (q ⟨0, by decide⟩).val :=
  dot_S64x2944_S2944x1024_S64x1024_1_0_0_1_n_n.rhsIdx_val_of_single rfl i q

/-- The right operand's column is the result's column. -/
theorem rhs_col (i : S64x1024.Idx) (q : dot_S64x2944_S2944x1024_S64x1024_1_0_0_1_n_n.contr.Idx) :
    (dot_S64x2944_S2944x1024_S64x1024_1_0_0_1_n_n.rhsIdx i q 1).val = (i 1).val := by
  unfold DotDims.rhsIdx
  rw [dif_neg (show ¬(1 : Fin S2944x1024.rank) ∈ dot_S64x2944_S2944x1024_S64x1024_1_0_0_1_n_n.rhsBatch by decide),
    dif_pos (show (1 : Fin S2944x1024.rank) ∈ dot_S64x2944_S2944x1024_S64x1024_1_0_0_1_n_n.rhsNonContracting by decide)]
  rfl

/-- A row vector sent down the 2944 rows reads, at row `v` and column `r`, its entry at column `r`. -/
theorem row_down {α : Type} (x : S1x1024.Idx → α) (v : Fin 2944) (r : Fin 1024) :
    broadcastTo S2944x1024 x broadcasts_S1x1024_S2944x1024 (ix2 v r) = x (ix2 0 r) :=
  broadcastTo_apply x _ _ _ fun a => match a with | ⟨0, _⟩ => rfl | ⟨1, _⟩ => rfl

/-! ## The block at an entry -/

/-- Entry `(r, d)` of the result block: the table's row `d` against column `r` of the two-hot matrix. -/
theorem out_apply (x0 x1 : Vec Ideal S1x1024 .i32) (x2 : Vec Ideal S1x1024 .f32) (x3 : Vec Ideal Cert.KernelIdeal.S64x2944 .bf16)
    (r : Fin 1024) (d : Fin 64) :
    Gen.out0_4 (F := Ideal) x0 x1 x2 x3 (ix2 r d)
      = ∑ v : Fin 2944, x3 (ix2 d v) *
          ((if IntOp.cmpi .eq (BitVec.ofNat 32 v.val) (x0 (ix2 0 r)) = 1#1 then 1 - x2 (ix2 0 r) else 0)
         + (if IntOp.cmpi .eq (BitVec.ofNat 32 v.val) (x1 (ix2 0 r)) = 1#1 then x2 (ix2 0 r) else 0)) := by
  -- one store over the whole block, of a value computed from four loads of whole blocks
  unfold Gen.out0_4
  rw [View.canon_unit_zero zeroOffsets]
  simp only [View.ld_unit_zero (S := S1x1024) zeroOffsets, View.ld_unit_zero (S := Cert.KernelIdeal.S64x2944) zeroOffsets]
  unfold Gen.k0_pay1
  -- the transpose reads entry (d, r) of the product, which is a sum over the 2944 table columns
  refine (transpose_ix2_apply _ _ r d).trans ?_
  refine (Ideal.matmul_constant_zero_apply _ none _ _ _).trans ?_
  rw [← Equiv.sum_comp (contrEquiv1 dot_S64x2944_S2944x1024_S64x1024_1_0_0_1_n_n 2944 rfl rfl).symm]
  refine Finset.sum_congr rfl fun v _ => ?_
  have hk := contrEquiv1_symm_val dot_S64x2944_S2944x1024_S64x1024_1_0_0_1_n_n 2944 rfl rfl v
  -- at summation position v the table is read at (d, v) and the two-hot matrix at (v, r)
  have el : dot_S64x2944_S2944x1024_S64x1024_1_0_0_1_n_n.lhsIdx (ix2 d r)
      ((contrEquiv1 dot_S64x2944_S2944x1024_S64x1024_1_0_0_1_n_n 2944 rfl rfl).symm v) = ix2 d v :=
    funext fun a => Fin.ext (by
      match a with
      | ⟨0, _⟩ => exact lhs_row _ _
      | ⟨1, _⟩ => exact (lhs_col _ _).trans hk)
  have er : dot_S64x2944_S2944x1024_S64x1024_1_0_0_1_n_n.rhsIdx (ix2 d r)
      ((contrEquiv1 dot_S64x2944_S2944x1024_S64x1024_1_0_0_1_n_n 2944 rfl rfl).symm v) = ix2 v r :=
    funext fun a => Fin.ext (by
      match a with
      | ⟨0, _⟩ => exact (rhs_row _ _).trans hk
      | ⟨1, _⟩ => exact rhs_col _ _)
  rw [el, er]
  -- a reshape to the same shape is the identity
  simp only [shapeCast_self]
  refine congrArg (x3 (ix2 d v) * ·) ?_
  -- entry (v, r) of the two-hot matrix: a sum of two selections, each on a comparison of the row counter with a word
  show Scalar.select (IntOp.cmpi .eq (iota .tc S2944x1024 32 [0] iota_S2944x1024_d0_w32 (ix2 v r))
          (broadcastTo S2944x1024 x0 broadcasts_S1x1024_S2944x1024 (ix2 v r)))
        (broadcastTo S2944x1024 (truncf .bf16 (subf (broadcast S1x1024 (Ideal.ofBits .f32 0x3F800000#32)) x2) bitsLt_bf16_f32)
          broadcasts_S1x1024_S2944x1024 (ix2 v r))
        (Ideal.ofBits .bf16 0x0000#16)
      + Scalar.select (IntOp.cmpi .eq (iota .tc S2944x1024 32 [0] iota_S2944x1024_d0_w32 (ix2 v r))
          (broadcastTo S2944x1024 x1 broadcasts_S1x1024_S2944x1024 (ix2 v r)))
        (broadcastTo S2944x1024 (truncf .bf16 x2 bitsLt_bf16_f32) broadcasts_S1x1024_S2944x1024 (ix2 v r))
        (Ideal.ofBits .bf16 0x0000#16) = _
  -- the row counter at (v, r) is v; each row vector is read at column r; the zero word is 0
  rw [iota_single_apply, row_down, row_down, row_down, row_down, Ideal.ofBits_zero_bf16]
  -- the word of one is 1; rounding to the shorter format is the identity; a selection is an `if`
  show (if _ = 1#1 then Ideal.ofBits .f32 0x3F800000#32 - x2 (ix2 0 r) else 0) + _ = _
  rw [Ideal.ofBits_one_f32]
  rfl

end Cert.Blend

end
-- ==== Proof.KArray.lean ====
/-
  From blocks to the whole result array.

  The region walks 256 points. At point `t` it stages columns `1024 t … 1024 t + 1023` of the three row arrays (ids,
  neighbour ids, weights, each [1, 262144]), the whole [64, 2944] table, and writes back rows `1024 t … 1024 t + 1023` of
  the [262144, 64] result. Entry `(r, d)` of the block written at `t` is the table's row `d` against the two-hot column of
  position `1024 t + r`; the 256 blocks tile the rows, row `n` lying in block `n / 1024`. So the array ends holding, at
  every `(n, d)`, the table's row `d` against the two-hot column of position `n`.
-/
import proofs.«408073_j19172734009775_3_alg».proof.Proof.Spec
import proofs.«408073_j19172734009775_3_alg».proof.Proof.Gen.KernelIdeal.Frame
import proofs.«408073_j19172734009775_3_alg».proof.Proof.KBlock
import Idealize.ShloMosaic.Lib.ValueIdx
import Idealize.ShloMosaic.Lib.Pipeline.Value

noncomputable section

namespace Cert.Blend

open Idealize.ShloMosaic Idealize.ShloMosaic.ValueIdx Cert.KernelIdeal Cert.KernelIdeal.Gen
open Idealize.ShloMosaic.TcCoe Idealize.SL.Sem
open Idealize.ShloMosaic.Pipeline (Dat)

variable (m : (ℓ : Loc nD τ sig) → Buf (Elt Ideal) ℓ) (c : Dev nD)

/-- The grid has 256 points. -/
theorem grid_size : cfg0.N = 256 := by decide

/-- Where each window's block sits at point `t`: the three row arrays move along their long axis with the result's
    rows, the table stays whole, and the result's block of rows is the `t`-th. -/
theorem index_maps : ∀ t : Fin cfg0.N,
    win0_0.index t (0 : Fin 2) = 0 ∧ win0_0.index t (1 : Fin 2) = win0_4.index t (0 : Fin 2)
    ∧ win0_1.index t (0 : Fin 2) = 0 ∧ win0_1.index t (1 : Fin 2) = win0_4.index t (0 : Fin 2)
    ∧ win0_2.index t (0 : Fin 2) = 0 ∧ win0_2.index t (1 : Fin 2) = win0_4.index t (0 : Fin 2)
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One block against the arrays. If the three loaded rows are columns `1024 b + r` of the row arrays and the loaded
    table is the table, then entry `j = (r, d)` of the body's result is the array's entry at `i = (1024 b + r, d)`. -/
theorem block_eq (x0 x1 : Vec Ideal S1x1024 .i32) (x2 : Vec Ideal S1x1024 .f32) (x3 : Vec Ideal Cert.KernelIdeal.S64x2944 .bf16)
    (IDS NBRF : IVec S1x262144 32) (WF : FVec Ideal S1x262144 .f32) (TT : FVec Ideal S64x2944 .bf16) (b : Nat)
    (h0 : ∀ (r : Fin 1024) (n : Fin 262144), n.val = b * 1024 + 1 * r.val → x0 (ix2 0 r) = IDS (ix2 0 n))
    (h1 : ∀ (r : Fin 1024) (n : Fin 262144), n.val = b * 1024 + 1 * r.val → x1 (ix2 0 r) = NBRF (ix2 0 n))
    (h2 : ∀ (r : Fin 1024) (n : Fin 262144), n.val = b * 1024 + 1 * r.val → x2 (ix2 0 r) = WF (ix2 0 n))
    (h3 : ∀ (d : Fin 64) (v : Fin 2944), x3 (ix2 d v) = TT (ix2 d v))
    (j : S1024x64.Idx) (i : S262144x64.Idx) (hi0 : (i 0).val = b * 1024 + 1 * (j 0).val) (hi1 : (i 1).val = (j 1).val) :
    Gen.out0_4 (F := Ideal) x0 x1 x2 x3 j = outArr IDS NBRF WF TT i := by
  obtain ⟨r, d, rfl⟩ : ∃ (r : Fin 1024) (d : Fin 64), j = ix2 r d := ⟨j 0, j 1, eq_ix2 j⟩
  have hd : i 1 = d := Fin.ext hi1
  rw [out_apply, h0 r (i 0) hi0, h1 r (i 0) hi0, h2 r (i 0) hi0]
  unfold outArr
  rw [hd]
  exact Finset.sum_congr rfl fun v _ => by rw [h3 d v]

/-- What point `t` writes back is block `t` of `outArr` of the four staged arrays. A block's coordinate in its array is
    the block index times the block's extent plus the coordinate inside the block. -/
theorem written_eq (t : Fin cfg0.N) :
    (dats (F := Ideal) m 0 c).flushed 4 t = ((cfg0.win 4).blk t).view.read (Elt Ideal)
      (outArr (V m c main_v106) (V m c main_v107) (V m c main_v108) (V m c main_v105)) := by
  show (cfg0.win 4).cut (grid0.coords t) ((dats m 0 c).after 4 t) = _
  rw [after0_4]
  obtain ⟨e00, e01, e10, e11, e20, e21, e30, e31, e40, e41⟩ := index_maps t
  funext j
  show out0_4 (iblk m c 0 t) (iblk m c 1 t) (iblk m c 2 t) (iblk m c 3 t) j
    = outArr (V m c main_v106) (V m c main_v107) (V m c main_v108) (V m c main_v105) (((cfg0.win 4).blk t).view.emb j)
  refine block_eq _ _ _ _ _ _ _ _ (win0_4.index t (0 : Fin 2)) ?_ ?_ ?_ ?_ j _ ?_ ?_
  -- the ids' block: column r of the block is column 1024 t + r of the array
  · intro r n hn
    show V m c main_v106 (((cfg0.win 0).blk t).view.emb (ix2 0 r)) = V m c main_v106 (ix2 0 n)
    refine congrArg _ (funext fun a => Fin.ext ?_)
    match a with
    | ⟨0, _⟩ => show win0_0.index t (0 : Fin 2) * 1 + 1 * 0 = 0; omega
    | ⟨1, _⟩ => show win0_0.index t (1 : Fin 2) * 1024 + 1 * r.val = n.val; omega
  -- the neighbour ids' block, likewise
  · intro r n hn
    show V m c main_v107 (((cfg0.win 1).blk t).view.emb (ix2 0 r)) = V m c main_v107 (ix2 0 n)
    refine congrArg _ (funext fun a => Fin.ext ?_)
    match a with
    | ⟨0, _⟩ => show win0_1.index t (0 : Fin 2) * 1 + 1 * 0 = 0; omega
    | ⟨1, _⟩ => show win0_1.index t (1 : Fin 2) * 1024 + 1 * r.val = n.val; omega
  -- the weights' block, likewise
  · intro r n hn
    show V m c main_v108 (((cfg0.win 2).blk t).view.emb (ix2 0 r)) = V m c main_v108 (ix2 0 n)
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * r.val = n.val; omega
  -- the table's block is the whole table
  · intro d v
    show V m c main_v105 (((cfg0.win 3).blk t).view.emb (ix2 d v)) = V m c main_v105 (ix2 d v)
    refine congrArg _ (funext fun a => Fin.ext ?_)
    match a with
    | ⟨0, _⟩ => show win0_3.index t (0 : Fin 2) * 64 + 1 * d.val = d.val; omega
    | ⟨1, _⟩ => show win0_3.index t (1 : Fin 2) * 2944 + 1 * v.val = v.val; omega
  -- the result's block: row r of the block is row 1024 t + r of the array, the columns are the array's
  · show win0_4.index t (0 : Fin 2) * 1024 + 1 * (j 0).val = _
    rfl
  · show win0_4.index t (1 : Fin 2) * 64 + 1 * (j 1).val = (j 1).val
    omega

/-- An entry of the result array is in point `t`'s block iff each coordinate is in the block's range on its axis. -/
theorem mem_block (t : Fin cfg0.N) (i : S262144x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v109).slice (win0_4.rect t)).set ↔ _
  rw [View.set_slice_whole, Rect.mem_set_unit]
  exact Iff.rfl

/-- THE RESULT ARRAY after the region: `outArr` of the four staged arrays as the region finds them. Every entry is
    written: row `n` lies in the block of point `n / 1024`. -/
theorem arr_eq : (Gen.dats (F := Ideal) m 0 c).arrAt 4 cfg0.N
    = outArr (Gen.V m c main_v106) (Gen.V m c main_v107) (Gen.V m c main_v108) (Gen.V m c main_v105) :=
  (dats m 0 c).arrAt_eq_of_cover 4 _ (fun t _ => written_eq m c t) fun i => by
    have hi0 : (i 0).val < 262144 := (i 0).isLt
    have hi1 : (i 1).val < 64 := (i 1).isLt
    obtain ⟨t, ht⟩ : ∃ t : Fin cfg0.N, t.val = (i 0).val / 1024 :=
      ⟨⟨(i 0).val / 1024, (show (i 0).val / 1024 < 256 by omega).trans_eq grid_size.symm⟩, rfl⟩
    obtain ⟨-, -, -, -, -, -, -, -, e40, e41⟩ := index_maps t
    refine ⟨t, flush0_4 t, ?_⟩
    rw [mem_block]
    intro a
    match a with
    | ⟨0, _⟩ =>
      show win0_4.index t (0 : Fin 2) * 1024 ≤ (i 0).val ∧ (i 0).val < win0_4.index t (0 : Fin 2) * 1024 + 1024
      omega
    | ⟨1, _⟩ =>
      show win0_4.index t (1 : Fin 2) * 64 ≤ (i 1).val ∧ (i 1).val < win0_4.index t (1 : Fin 2) * 64 + 64
      omega

end Cert.Blend

end
-- ==== Proof.Tail.lean ====
/-
  After the region: the program's result is the region's result array [262144, 64] read as [32, 8192, 64]
  (position (b, t) is row b · 8192 + t).
-/
import proofs.«408073_j19172734009775_3_alg».proof.Proof.Spec
import proofs.«408073_j19172734009775_3_alg».proof.Proof.Gen.KernelIdeal.Frame
import Idealize.ShloMosaic.Lib.StableHlo.Run

set_option maxRecDepth 16384

noncomputable section

namespace Cert.Blend

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The one host operation after the region reshapes the region's result array. -/
theorem tail_v110 (c : Dev nD) :
    Pipeline.afterTail₀ cfgs (Gen.dats (F := Ideal) m) 0 (Gen.V0 m) [Gen.hostOps1] c main_v110
      = shapeCast Cert.KernelIdeal.S32x8192x64 ((Gen.dats (F := Ideal) m 0 c).arrAt 4 cfg0.N) shapeCasts_S262144x64_S32x8192x64 := by
  unfold Pipeline.afterTail₀
  show StableHlo.after Gen.hostOps1 _ (Proc.devRef .tc main_v110) = _
  after_results
  have e := Pipeline.withArrays_arr (cfgs 0).spec launch0.win.arr_inj c (V0 m c) (fun w => (dats (F := Ideal) m 0 c).arrAt w (cfgs 0).N) 4
  funext i
  have e' : Pipeline.withArrays (cfgs 0).spec c (V0 m c) (fun w => (dats (F := Ideal) m 0 c).arrAt w (cfgs 0).N) (Proc.tc.devRef main_v109)
      = (dats (F := Ideal) m 0 c).arrAt 4 (cfgs 0).N := e
  rw [e']
  rfl

end Cert.Blend

end
-- ==== Proof.lean ====
/-
  The certificate of a fused gather-and-blend kernel against its jnp reference, over the extended reals.

  Both programs compute, from phoneme ids [32, 8192] and an embedding table [2820, 64], per position a blend weight
  `w` and a neighbour id (one and the same host computation in both), and return
  `(1 - w) · table'[id] + w · table'[neighbour]`, `table'` the table with row 0 zeroed. The reference indexes the
  table; the kernel clips ids and neighbour ids to `[0, 2819]`, lays the table out transposed and zero-padded to
  2944 columns, and per block of 1024 positions multiplies it on the matrix unit by a two-hot matrix
  (`1 - w` at the id's row plus `w` at the neighbour's row). The precondition: the table is finite and every id is
  a row number of the table.

  The frames of the two kernel programs are the generated ones; the reference's frame is its run with the result
  dropped; nothing was rewritten by the idealization. The value claim: the kernel's run ends with the region's
  result array, block by block the body's product (KBlock, KArray), reshaped (Tail); the arrays the region stages
  are the host computation's stages (HostPrefix); index by index that is the reference's blend (Bridge), which is
  what the reference's run ends with.
-/
import proofs.«408073_j19172734009775_3_alg».proof.Defs
import proofs.«408073_j19172734009775_3_alg».proof.Proof.Gen.Kernel
import proofs.«408073_j19172734009775_3_alg».proof.Proof.Gen.Kernel.Skeleton
import proofs.«408073_j19172734009775_3_alg».proof.Proof.Gen.Kernel.Launch
import proofs.«408073_j19172734009775_3_alg».proof.Proof.Gen.Kernel.Points
import proofs.«408073_j19172734009775_3_alg».proof.Proof.Gen.Kernel.Frame
import proofs.«408073_j19172734009775_3_alg».proof.Proof.Gen.KernelIdeal
import proofs.«408073_j19172734009775_3_alg».proof.Proof.Gen.KernelIdeal.Skeleton
import proofs.«408073_j19172734009775_3_alg».proof.Proof.Gen.KernelIdeal.Launch
import proofs.«408073_j19172734009775_3_alg».proof.Proof.Gen.KernelIdeal.Points
import proofs.«408073_j19172734009775_3_alg».proof.Proof.Gen.KernelIdeal.Frame
import proofs.«408073_j19172734009775_3_alg».proof.Proof.Gen.ReferenceIdeal
import proofs.«408073_j19172734009775_3_alg».proof.Proof.Gen.Pre_finite_inputs
import proofs.«408073_j19172734009775_3_alg».proof.Proof.RefRun
import proofs.«408073_j19172734009775_3_alg».proof.Proof.Bridge
import proofs.«408073_j19172734009775_3_alg».proof.Proof.HostPrefix
import proofs.«408073_j19172734009775_3_alg».proof.Proof.KArray
import proofs.«408073_j19172734009775_3_alg».proof.Proof.Tail
import Idealize.ShloMosaic.Adequacy
import Idealize.ShloMosaic.Init

set_option maxRecDepth 16384

noncomputable section

namespace Cert.Blend

open Idealize.ShloMosaic Idealize.ShloMosaic.ValueIdx Idealize.SL.Sem

section KernelSide
open Cert.KernelIdeal Cert.KernelIdeal.Gen

variable (m : (ℓ : Loc nD τ sig) → Buf (Elt Ideal) ℓ) (ρ : Dev nD → PrngReg)

/-- The region's result array, read as [32, 8192, 64], is the reference's blend of the two argument arrays. -/
theorem kernel_result_eq (c : Dev nD)
    (hpre : Cert.Pre_finite_inputs.fn (F := Ideal) (m ((c.tc : Thread nD τ).loc main_arg0)) (m ((c.tc : Thread nD τ).loc main_arg1)) = fun _ => 1#1) :
    shapeCast Cert.KernelIdeal.S32x8192x64 ((Gen.dats (F := Ideal) m 0 c).arrAt 4 cfg0.N) shapeCasts_S262144x64_S32x8192x64
      = Cert.ReferenceIdeal.Read.val_main_v122 (F := Ideal) (m ((c.tc : Thread nD τ).loc main_arg0)) (m ((c.tc : Thread nD τ).loc main_arg1)) := by
  rw [arr_eq, V_ids, V_nbr, V_w, V_tbl]
  funext i
  obtain ⟨b, t, d, rfl⟩ : ∃ (b : Fin 32) (t : Fin 8192) (d : Fin 64), i = ix3 b t d := ⟨i 0, i 1, i 2, eq_ix3 i⟩
  have hn : b.val * 8192 + t.val < 262144 := by have := b.isLt; have := t.isLt; omega
  refine (shapeCast_apply _ _ (ix3 b t d) (ix2 ⟨b.val * 8192 + t.val, hn⟩ d) ?_).trans (bridge_at _ _ hpre b t d hn)
  rw [Shape.rowMajor_val_two, Shape.rowMajor_val_three]
  show (b.val * 8192 + t.val) * 64 + d.val = (b.val * 8192 + t.val) * 64 + d.val
  rfl

/-- The kernel program's run with its result named: the blend of the arguments, which end unchanged. -/
theorem kernel_run (hpre : Cert.Pre_KernelIdeal (hPre_finite_inputs := Cert.Pre_finite_inputs.Gen.facts) m) :
    θ_run (defs (F := Ideal)) (onTc (τ := τ) (main (F := Ideal))) ⟨m, fun _ => 0, ρ⟩ (fun r => ∀ c : Dev nD,
      r.2.mem ((c.tc : Thread nD τ).loc main_v110)
        = Cert.ReferenceIdeal.Read.val_main_v122 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v110 (Pipeline.mem_restRefs_of main_v110 (by decide) (by decide))).trans
        ((tail_v110 m c).trans (kernel_result_eq m c (hpre c))),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c)⟩)
    (Gen.run_main m ρ)

end KernelSide

end Cert.Blend

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, from memories agreeing on the arguments, end with the same array: the reference's blend. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v122 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Blend.kernel_run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
